-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S16 : Shape := ⟨1, ![16]⟩
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S16x128 : Shape := ⟨2, ![16, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg7 : FVec F S128 .f32) (main_arg8 : FVec F S16x128 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S16x128 .f32 := Host.absf main_arg8
  let main_cst_8 : FVec F S_ .f32 := constant S_ .f32 0x7F800000#32
  let main_v25 : FVec F S16x128 .f32 := broadcastInDim S16x128 ![] bcast_S_S16x128 main_cst_8
  let main_v26 : IVec S16x128 1 := cmpf .olt main_v24 main_v25
  let main_c_9 : IVec S_ 1 := constantI S_ 1 1#1
  let main_v27 : IVec S_ 1 := (fun x v => Host.reduce IntOp.andi x v reducesTo_S16x128_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : IVec S100000 32) (main_arg1 : IVec S2x1600000 32) (main_arg2 : IVec S16 32) (main_arg3 : FVec F S100000x256 .f32) (main_arg4 : FVec F S256x128 .f32) (main_arg5 : FVec F S128 .f32) (main_arg6 : FVec F S128x128 .f32) (main_arg7 : FVec F S128 .f32) (main_arg8 : FVec F S16x128 .f32) (main_arg9 : FVec F S16 .f32) : IVec S_ 1 :=
  let main_v0 : FVec F S100000x256 .f32 := Host.absf main_arg3
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000 : Shape := ⟨1, ![100000]⟩
abbrev S2x1600000 : Shape := ⟨2, ![2, 1600000]⟩
abbrev S16 : Shape := ⟨1, ![16]⟩
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S16x128 : Shape := ⟨2, ![16, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1600000x128 : Shape := ⟨2, ![1600000, 128]⟩
abbrev S128x16 : Shape := ⟨2, ![128, 16]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 69
  | .vmem => 38
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S16, .i32⟩
  | .hbm, ⟨3, _⟩ => ⟨S100000x256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16x128, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S256x128, .bf16⟩
  | .hbm, ⟨31, _⟩ => ⟨S1x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S128x128, .bf16⟩
  | .hbm, ⟨48, _⟩ => ⟨S1x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S128x16, .f32⟩
  | .hbm, ⟨66, _⟩ => ⟨S128x16, .bf16⟩
  | .hbm, ⟨67, _⟩ => ⟨S1x16, .f32⟩
  | .hbm, ⟨68, _⟩ => ⟨S100000x16, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .bf16⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x16, .bf16⟩
  | .local _ .vmem, ⟨35, _⟩ => ⟨S1x16, .f32⟩
  | .local _ .vmem, ⟨36, _⟩ => ⟨S2000x16, .f32⟩
  | .local _ .vmem, ⟨37, _⟩ => ⟨S2000x16, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x16 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S16x128_S128x16_1_0 : S16x128.Transposes [1, 0] S128x16
  shapeCasts_S16_S1x16 : S16.ShapeCasts S1x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x16.size a ≤ S128x16.size a
  hwx5_1 : ∀ i : grid5.Coords, EltTy.bits .bf16 = 32 ∨ (Rect.block (s := S128x16) S128x16.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x16.size a ≤ S100000x16.size a
  hwx5_3 : ∀ i : grid5.Coords, EltTy.bits .f32 = 32 ∨ (Rect.block (s := S100000x16) S2000x16.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_arg3) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v42) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S128x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v45) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S2000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000 : Shape := ⟨1, ![100000]⟩
abbrev S2x1600000 : Shape := ⟨2, ![2, 1600000]⟩
abbrev S16 : Shape := ⟨1, ![16]⟩
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S16x128 : Shape := ⟨2, ![16, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S128x16 : Shape := ⟨2, ![128, 16]⟩
abbrev S100000x16 : Shape := ⟨2, ![100000, 16]⟩
abbrev S1x16 : Shape := ⟨2, ![1, 16]⟩

abbrev nBuf : Space → Nat
  | .hbm => 99
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S16, .i32⟩
  | .hbm, ⟨3, _⟩ => ⟨S100000x256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16x128, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x256, .f32⟩
  | .hbm, ⟨29, _⟩ => ⟨S100000x256, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S1x1600000, .i32⟩
  | .hbm, ⟨53, _⟩ => ⟨S1600000, .i32⟩
  | .hbm, ⟨54, _⟩ => ⟨S1x1600000, .i32⟩
  | .hbm, ⟨55, _⟩ => ⟨S1600000, .i32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S128x16, .f32⟩
  | .hbm, ⟨95, _⟩ => ⟨S100000x16, .f32⟩
  | .hbm, ⟨96, _⟩ => ⟨S1x16, .f32⟩
  | .hbm, ⟨97, _⟩ => ⟨S100000x16, .f32⟩
  | .hbm, ⟨98, _⟩ => ⟨S100000x16, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_cst : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call3_cst : Ref sig .tc := ⟨.hbm, 91, rfl⟩
abbrev main_call3_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelHost.lean ====
/-
  The host operations of the kernel program, stretch by stretch, as functions of what the stretch finds.

  Between the kernel regions the program works on whole arrays: it splits the edge list into its source
  and destination rows, counts each node's out-degree by a scatter-add of ones, clamps it below at one and raises
  it to the power -1/2 (the normaliser, laid out as one column), casts the weights, lays the biases out as one row,
  and, twice, gathers the rows of an array at the edges' sources and adds them up at the edges' destinations.
  Each lemma below says what one buffer holds after one stretch, for ANY contents `X` the stretch starts
  from: a buffer the stretch writes holds the operations' term of what `X` holds at the stretch's inputs, and a buffer
  it does not write holds what `X` held.
-/
import proofs.«135295_j45483703664785_1_alg».proof.Proof.Gen.KernelIdeal.Launch
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.StableHlo

variable {F : FTy → Type} [FloatOps F]

/-! ## The operations' terms -/

/-- Row 0 of the edge list: each edge's source node. -/
def srcIdx (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: each edge's destination node. -/
def dstIdx (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Each node's out-degree: ones added up at the edges' sources. -/
def degree (s : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 s)
    (broadcastInDim S1600000 ![] bcast_S_S1600000 (constant S_ .f32 0x3F800000#32))

/-- The degree clamped below at the constant `lo`. -/
def clampLow (lo : (⟨S_, .f32⟩ : BufTy).Contents (Elt F)) (d : (⟨S100000, .f32⟩ : BufTy).Contents (Elt F)) :
    (⟨S100000, .f32⟩ : BufTy).Contents (Elt F) :=
  maximumf (broadcastInDim S100000 ![] bcast_S_S100000 (id lo)) d

/-- The clamped degree to the power the word `0xBF000000` denotes, as one column. -/
def normCol (d : (⟨S100000, .f32⟩ : BufTy).Contents (Elt F)) : (⟨S100000x1, .f32⟩ : BufTy).Contents (Elt F) :=
  shapeCast _ (Host.powf d (broadcastInDim S100000 ![] bcast_S_S100000 (constant S_ .f32 0xBF000000#32))) shapeCasts_S100000_S100000x1

/-- A source index with a negative one counting from the end. -/
def wrapIdx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The rows of `a` gathered at the edges' sources and added up at the edges' destinations. -/
def aggregate (a : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 a (wrapIdx s))

variable (X : Valuation τ sig (Elt F))

/-! ## The first stretch: the edge list split, the degrees -/

theorem ops0_v1 : after hostOps0 X (Proc.devRef .tc main_v1) = srcIdx (X (Proc.devRef .tc main_arg1)) := by
  after_results; rfl
theorem ops0_v3 : after hostOps0 X (Proc.devRef .tc main_v3) = dstIdx (X (Proc.devRef .tc main_arg1)) := by
  after_results; rfl
theorem ops0_v9 : after hostOps0 X (Proc.devRef .tc main_v9) = degree (srcIdx (X (Proc.devRef .tc main_arg1))) := by
  after_results; rfl
theorem ops0_cst_1 : after hostOps0 X (Proc.devRef .tc main_cst_1) = constant S_ .f32 0x3F800000#32 := by
  after_results
theorem ops0_arg3 : after hostOps0 X (Proc.devRef .tc main_arg3) = X (Proc.devRef .tc main_arg3) := by after_results
theorem ops0_arg4 : after hostOps0 X (Proc.devRef .tc main_arg4) = X (Proc.devRef .tc main_arg4) := by after_results
theorem ops0_arg5 : after hostOps0 X (Proc.devRef .tc main_arg5) = X (Proc.devRef .tc main_arg5) := by after_results
theorem ops0_arg6 : after hostOps0 X (Proc.devRef .tc main_arg6) = X (Proc.devRef .tc main_arg6) := by after_results
theorem ops0_arg7 : after hostOps0 X (Proc.devRef .tc main_arg7) = X (Proc.devRef .tc main_arg7) := by after_results
theorem ops0_arg8 : after hostOps0 X (Proc.devRef .tc main_arg8) = X (Proc.devRef .tc main_arg8) := by after_results
theorem ops0_arg9 : after hostOps0 X (Proc.devRef .tc main_arg9) = X (Proc.devRef .tc main_arg9) := by after_results

/-! ## The second stretch: the degree clamped below -/

theorem ops01_v10 : after hostOps0_1 X (Proc.devRef .tc main_v10)
    = clampLow (X (Proc.devRef .tc main_cst_1)) (X (Proc.devRef .tc main_v9)) := by
  after_results_simp; rfl
theorem ops01_v1 : after hostOps0_1 X (Proc.devRef .tc main_v1) = X (Proc.devRef .tc main_v1) := by after_results_simp
theorem ops01_v3 : after hostOps0_1 X (Proc.devRef .tc main_v3) = X (Proc.devRef .tc main_v3) := by after_results_simp
theorem ops01_arg3 : after hostOps0_1 X (Proc.devRef .tc main_arg3) = X (Proc.devRef .tc main_arg3) := by after_results_simp
theorem ops01_arg4 : after hostOps0_1 X (Proc.devRef .tc main_arg4) = X (Proc.devRef .tc main_arg4) := by after_results_simp
theorem ops01_arg5 : after hostOps0_1 X (Proc.devRef .tc main_arg5) = X (Proc.devRef .tc main_arg5) := by after_results_simp
theorem ops01_arg6 : after hostOps0_1 X (Proc.devRef .tc main_arg6) = X (Proc.devRef .tc main_arg6) := by after_results_simp
theorem ops01_arg7 : after hostOps0_1 X (Proc.devRef .tc main_arg7) = X (Proc.devRef .tc main_arg7) := by after_results_simp
theorem ops01_arg8 : after hostOps0_1 X (Proc.devRef .tc main_arg8) = X (Proc.devRef .tc main_arg8) := by after_results_simp
theorem ops01_arg9 : after hostOps0_1 X (Proc.devRef .tc main_arg9) = X (Proc.devRef .tc main_arg9) := by after_results_simp

/-! ## The third stretch: the normaliser column, the first layer's weights and bias laid out -/

theorem ops02_v13 : after hostOps0_2 X (Proc.devRef .tc main_v13) = normCol (X (Proc.devRef .tc main_v10)) := by
  after_results; rfl
theorem ops02_v14 : after hostOps0_2 X (Proc.devRef .tc main_v14) = truncf .bf16 (X (Proc.devRef .tc main_arg4)) bitsLt_bf16_f32 := by
  after_results
theorem ops02_v15 : after hostOps0_2 X (Proc.devRef .tc main_v15) = shapeCast _ (X (Proc.devRef .tc main_arg5)) shapeCasts_S128_S1x128 := by
  after_results; rfl
theorem ops02_v1 : after hostOps0_2 X (Proc.devRef .tc main_v1) = X (Proc.devRef .tc main_v1) := by after_results
theorem ops02_v3 : after hostOps0_2 X (Proc.devRef .tc main_v3) = X (Proc.devRef .tc main_v3) := by after_results
theorem ops02_arg3 : after hostOps0_2 X (Proc.devRef .tc main_arg3) = X (Proc.devRef .tc main_arg3) := by after_results
theorem ops02_arg6 : after hostOps0_2 X (Proc.devRef .tc main_arg6) = X (Proc.devRef .tc main_arg6) := by after_results
theorem ops02_arg7 : after hostOps0_2 X (Proc.devRef .tc main_arg7) = X (Proc.devRef .tc main_arg7) := by after_results
theorem ops02_arg8 : after hostOps0_2 X (Proc.devRef .tc main_arg8) = X (Proc.devRef .tc main_arg8) := by after_results
theorem ops02_arg9 : after hostOps0_2 X (Proc.devRef .tc main_arg9) = X (Proc.devRef .tc main_arg9) := by after_results

/-! ## Between the first and the second region: the first aggregation -/

theorem ops1_v26 : after hostOps1 X (Proc.devRef .tc main_v26)
    = aggregate (X (Proc.devRef .tc main_v16)) (X (Proc.devRef .tc main_v1)) (X (Proc.devRef .tc main_v3)) := by
  after_results; rfl
theorem ops1_v13 : after hostOps1 X (Proc.devRef .tc main_v13) = X (Proc.devRef .tc main_v13) := by after_results
theorem ops1_v15 : after hostOps1 X (Proc.devRef .tc main_v15) = X (Proc.devRef .tc main_v15) := by after_results
theorem ops1_v1 : after hostOps1 X (Proc.devRef .tc main_v1) = X (Proc.devRef .tc main_v1) := by after_results
theorem ops1_v3 : after hostOps1 X (Proc.devRef .tc main_v3) = X (Proc.devRef .tc main_v3) := by after_results
theorem ops1_arg6 : after hostOps1 X (Proc.devRef .tc main_arg6) = X (Proc.devRef .tc main_arg6) := by after_results
theorem ops1_arg7 : after hostOps1 X (Proc.devRef .tc main_arg7) = X (Proc.devRef .tc main_arg7) := by after_results
theorem ops1_arg8 : after hostOps1 X (Proc.devRef .tc main_arg8) = X (Proc.devRef .tc main_arg8) := by after_results
theorem ops1_arg9 : after hostOps1 X (Proc.devRef .tc main_arg9) = X (Proc.devRef .tc main_arg9) := by after_results

/-! ## Between the second and the third region: the second layer's weights and bias laid out -/

theorem ops2_v28 : after hostOps2 X (Proc.devRef .tc main_v28) = truncf .bf16 (X (Proc.devRef .tc main_arg6)) bitsLt_bf16_f32 := by
  after_results
theorem ops2_v29 : after hostOps2 X (Proc.devRef .tc main_v29) = shapeCast _ (X (Proc.devRef .tc main_arg7)) shapeCasts_S128_S1x128 := by
  after_results; rfl
theorem ops2_v27 : after hostOps2 X (Proc.devRef .tc main_v27) = X (Proc.devRef .tc main_v27) := by after_results
theorem ops2_v13 : after hostOps2 X (Proc.devRef .tc main_v13) = X (Proc.devRef .tc main_v13) := by after_results
theorem ops2_v1 : after hostOps2 X (Proc.devRef .tc main_v1) = X (Proc.devRef .tc main_v1) := by after_results
theorem ops2_v3 : after hostOps2 X (Proc.devRef .tc main_v3) = X (Proc.devRef .tc main_v3) := by after_results
theorem ops2_arg8 : after hostOps2 X (Proc.devRef .tc main_arg8) = X (Proc.devRef .tc main_arg8) := by after_results
theorem ops2_arg9 : after hostOps2 X (Proc.devRef .tc main_arg9) = X (Proc.devRef .tc main_arg9) := by after_results

/-! ## Between the third and the fourth region: the second aggregation -/

theorem ops3_v40 : after hostOps3 X (Proc.devRef .tc main_v40)
    = aggregate (X (Proc.devRef .tc main_v30)) (X (Proc.devRef .tc main_v1)) (X (Proc.devRef .tc main_v3)) := by
  after_results; rfl
theorem ops3_v13 : after hostOps3 X (Proc.devRef .tc main_v13) = X (Proc.devRef .tc main_v13) := by after_results
theorem ops3_v28 : after hostOps3 X (Proc.devRef .tc main_v28) = X (Proc.devRef .tc main_v28) := by after_results
theorem ops3_v29 : after hostOps3 X (Proc.devRef .tc main_v29) = X (Proc.devRef .tc main_v29) := by after_results
theorem ops3_arg8 : after hostOps3 X (Proc.devRef .tc main_arg8) = X (Proc.devRef .tc main_arg8) := by after_results
theorem ops3_arg9 : after hostOps3 X (Proc.devRef .tc main_arg9) = X (Proc.devRef .tc main_arg9) := by after_results

/-! ## Before the last region: the last layer's weights transposed and cast, its bias laid out -/

theorem ops5_v44 : after hostOps5 X (Proc.devRef .tc main_v44)
    = truncf .bf16 (transpose S128x16 [1, 0] (X (Proc.devRef .tc main_arg8)) transposes_S16x128_S128x16_1_0) bitsLt_bf16_f32 := by
  after_results
theorem ops5_v45 : after hostOps5 X (Proc.devRef .tc main_v45) = shapeCast _ (X (Proc.devRef .tc main_arg9)) shapeCasts_S16_S1x16 := by
  after_results; rfl
theorem ops5_v42 : after hostOps5 X (Proc.devRef .tc main_v42) = X (Proc.devRef .tc main_v42) := by after_results

end Cert.KernelIdeal.HostSide

end
-- ==== Proof.Spec.lean ====
/-
  The node-row arithmetic of a two-layer graph convolution followed by a linear layer, as whole-array
  functions on the extended reals.

  Every array has one row per node.  A degree normaliser is carried as a one-column array `n`, so the
  row `p` of an array is scaled by `n (p, 0)`; a bias is carried as a one-row array `b`, so column `q`
  is shifted by `b (0, q)`.  The five row-wise steps are

    * `scaleMatmul x n w` : (x ⊙ n) · w, at (p, q) the sum over k of (x (p, k) · n (p, 0)) · w (k, q);
    * `finalize x n b`    : max (x ⊙ n + b, z) with z the value the zero word denotes;
    * `scale x n`         : x ⊙ n;
    * `matmul x w`        : x · w;
    * `finalLinear x w b` : x · w + b.

  `col v` is a vector laid out as one column and `row v` a vector laid out as one row.  The weights may
  be of any float format: on the extended reals a change of format is the identity.
-/
import Idealize.ShloMosaic.Lib.ValueIdx
import Idealize.ShloMosaic.PureOps.Ideal.Laws

noncomputable section

open scoped BigOperators

namespace Cert.Spec

open Idealize.ShloMosaic Idealize.ShloMosaic.ValueIdx

variable {R K C : ℕ} {φ ψ : FTy}

/-- A vector of length `R` as an `R × 1` column. -/
def col (v : FVec Ideal ⟨1, ![R]⟩ φ) : FVec Ideal ⟨2, ![R, 1]⟩ φ := fun i => v (ix1 (i 0 : Fin R))

/-- A vector of length `C` as a `1 × C` row. -/
def row (v : FVec Ideal ⟨1, ![C]⟩ φ) : FVec Ideal ⟨2, ![1, C]⟩ φ := fun i => v (ix1 (i 1 : Fin C))

theorem col_apply (v : FVec Ideal ⟨1, ![R]⟩ φ) (p : Fin R) (z : Fin 1) : col v (ix2 p z) = v (ix1 p) := rfl
theorem row_apply (v : FVec Ideal ⟨1, ![C]⟩ φ) (z : Fin 1) (q : Fin C) : row v (ix2 z q) = v (ix1 q) := rfl

/-- Row `p` scaled by its normaliser, then multiplied into column `q` of the weights. -/
def scaleMatmulAt (x : FVec Ideal ⟨2, ![R, K]⟩ .f32) (n : FVec Ideal ⟨2, ![R, 1]⟩ .f32) (w : FVec Ideal ⟨2, ![K, C]⟩ φ)
    (p : Fin R) (q : Fin C) : EReal :=
  ∑ k : Fin K, (x (ix2 p k) * n (ix2 p (0 : Fin 1))) * w (ix2 k q)

def scaleMatmul (x : FVec Ideal ⟨2, ![R, K]⟩ .f32) (n : FVec Ideal ⟨2, ![R, 1]⟩ .f32) (w : FVec Ideal ⟨2, ![K, C]⟩ φ) :
    FVec Ideal ⟨2, ![R, C]⟩ .f32 := fun i => scaleMatmulAt x n w (i 0) (i 1)

/-- Entry (p, q) scaled by row `p`'s normaliser, shifted by column `q`'s bias, clamped below at the zero word's value. -/
def finalizeAt (x : FVec Ideal ⟨2, ![R, C]⟩ .f32) (n : FVec Ideal ⟨2, ![R, 1]⟩ .f32) (b : FVec Ideal ⟨2, ![1, C]⟩ .f32)
    (p : Fin R) (q : Fin C) : EReal :=
  max (x (ix2 p q) * n (ix2 p (0 : Fin 1)) + b (ix2 (0 : Fin 1) q)) (Ideal.ofBits .f32 0x00000000#32)

def finalize (x : FVec Ideal ⟨2, ![R, C]⟩ .f32) (n : FVec Ideal ⟨2, ![R, 1]⟩ .f32) (b : FVec Ideal ⟨2, ![1, C]⟩ .f32) :
    FVec Ideal ⟨2, ![R, C]⟩ .f32 := fun i => finalizeAt x n b (i 0) (i 1)

/-- Entry (p, q) scaled by row `p`'s normaliser. -/
def scaleAt (x : FVec Ideal ⟨2, ![R, C]⟩ .f32) (n : FVec Ideal ⟨2, ![R, 1]⟩ .f32) (p : Fin R) (q : Fin C) : EReal :=
  x (ix2 p q) * n (ix2 p (0 : Fin 1))

def scale (x : FVec Ideal ⟨2, ![R, C]⟩ .f32) (n : FVec Ideal ⟨2, ![R, 1]⟩ .f32) : FVec Ideal ⟨2, ![R, C]⟩ .f32 :=
  fun i => scaleAt x n (i 0) (i 1)

/-- Row `p` multiplied into column `q` of the weights. -/
def matmulAt (x : FVec Ideal ⟨2, ![R, K]⟩ .f32) (w : FVec Ideal ⟨2, ![K, C]⟩ φ) (p : Fin R) (q : Fin C) : EReal :=
  ∑ k : Fin K, x (ix2 p k) * w (ix2 k q)

def matmul (x : FVec Ideal ⟨2, ![R, K]⟩ .f32) (w : FVec Ideal ⟨2, ![K, C]⟩ φ) : FVec Ideal ⟨2, ![R, C]⟩ .f32 :=
  fun i => matmulAt x w (i 0) (i 1)

/-- Row `p` multiplied into column `q` of the weights, shifted by column `q`'s bias. -/
def finalLinearAt (x : FVec Ideal ⟨2, ![R, K]⟩ .f32) (w : FVec Ideal ⟨2, ![K, C]⟩ φ) (b : FVec Ideal ⟨2, ![1, C]⟩ .f32)
    (p : Fin R) (q : Fin C) : EReal :=
  matmulAt x w p q + b (ix2 (0 : Fin 1) q)

def finalLinear (x : FVec Ideal ⟨2, ![R, K]⟩ .f32) (w : FVec Ideal ⟨2, ![K, C]⟩ φ) (b : FVec Ideal ⟨2, ![1, C]⟩ .f32) :
    FVec Ideal ⟨2, ![R, C]⟩ .f32 := fun i => finalLinearAt x w b (i 0) (i 1)

end Cert.Spec

end
-- ==== Proof.KernelTerm.lean ====
/-
  The kernel program's result as ONE function of its arguments: the normaliser column, then layer by layer the
  row-wise steps of `Spec` with the edge aggregation between them, the weights cast to the narrower format on the
  way in (the identity on the extended reals) and the biases laid out as rows.
-/
import proofs.«135295_j45483703664785_1_alg».proof.Proof.KernelHost
import proofs.«135295_j45483703664785_1_alg».proof.Proof.Spec

noncomputable section

namespace Cert.KernelIdeal.Value

open Cert.KernelIdeal Cert.KernelIdeal.Gen Cert.KernelIdeal.HostSide
open Idealize.ShloMosaic Idealize.ShloMosaic.TcCoe

section Term

variable (e : (⟨S2x1600000, .i32⟩ : BufTy).Contents (Elt Ideal)) (x : (⟨S100000x256, .f32⟩ : BufTy).Contents (Elt Ideal))
  (w1 : (⟨S256x128, .f32⟩ : BufTy).Contents (Elt Ideal)) (b1 : (⟨S128, .f32⟩ : BufTy).Contents (Elt Ideal))
  (w2 : (⟨S128x128, .f32⟩ : BufTy).Contents (Elt Ideal)) (b2 : (⟨S128, .f32⟩ : BufTy).Contents (Elt Ideal))
  (w3 : (⟨S16x128, .f32⟩ : BufTy).Contents (Elt Ideal)) (b3 : (⟨S16, .f32⟩ : BufTy).Contents (Elt Ideal))

/-- The normaliser column: the out-degree, clamped below at one, to the power -1/2. -/
def nrm : (⟨S100000x1, .f32⟩ : BufTy).Contents (Elt Ideal) :=
  normCol (clampLow (constant (F := Ideal) S_ .f32 0x3F800000#32) (degree (srcIdx e)))

/-- Layer 1 before aggregation: the scaled features times the first weights. -/
def feat1 : (⟨S100000x128, .f32⟩ : BufTy).Contents (Elt Ideal) :=
  Spec.scaleMatmul x (nrm e) (truncf .bf16 w1 bitsLt_bf16_f32)

/-- Layer 1's output: aggregated over the edges, scaled, shifted, clamped. -/
def hid1 : (⟨S100000x128, .f32⟩ : BufTy).Contents (Elt Ideal) :=
  Spec.finalize (aggregate (feat1 e x w1) (srcIdx e) (dstIdx e)) (nrm e) (shapeCast _ b1 shapeCasts_S128_S1x128)

/-- Layer 2 before aggregation: layer 1's output scaled. -/
def feat2 : (⟨S100000x128, .f32⟩ : BufTy).Contents (Elt Ideal) :=
  Spec.scale (hid1 e x w1 b1) (nrm e)

/-- Layer 2 after aggregation, times the second weights. -/
def prod2 : (⟨S100000x128, .f32⟩ : BufTy).Contents (Elt Ideal) :=
  Spec.matmul (aggregate (feat2 e x w1 b1) (srcIdx e) (dstIdx e)) (truncf .bf16 w2 bitsLt_bf16_f32)

/-- Layer 2's output. -/
def hid2 : (⟨S100000x128, .f32⟩ : BufTy).Contents (Elt Ideal) :=
  Spec.finalize (prod2 e x w1 b1 w2) (nrm e) (shapeCast _ b2 shapeCasts_S128_S1x128)

/-- The program's result: layer 2's output through the last linear layer. -/
def out : (⟨S100000x16, .f32⟩ : BufTy).Contents (Elt Ideal) :=
  Spec.finalLinear (hid2 e x w1 b1 w2 b2)
    (truncf .bf16 (transpose S128x16 [1, 0] w3 transposes_S16x128_S128x16_1_0) bitsLt_bf16_f32)
    (shapeCast _ b3 shapeCasts_S16_S1x16)

end Term

end Cert.KernelIdeal.Value

end
-- ==== Proof.Region0.lean ====
/-
  The first kernel region scales every row of its input by that row's normaliser and multiplies the scaled
  rows into the weights: (x ⊙ n) · w.

  One grid point handles 2000 consecutive rows: it reads rows 2000 t … 2000 t + 1999 of the input and of the
  one-column normaliser, and the whole 256 × 128 weight array.  Entry (p, q) of the block it writes is the sum
  over the 256 contraction positions k of (x (p, k) · n (p, 0)) · w (k, q); the rounding of the scaled row to
  the weights' format is the identity on the extended reals, and the accumulator the product starts from is
  zero.  The block goes back to the same 2000 rows of the output.  The fifty blocks tile the output, so after
  the region the output array is `Spec.scaleMatmul` of the three arrays the region found.
-/
import proofs.«135295_j45483703664785_1_alg».proof.Proof.Gen.KernelIdeal.Frame
import proofs.«135295_j45483703664785_1_alg».proof.Proof.Spec
import Idealize.ShloMosaic.Lib.Pipeline.Value
import Idealize.ShloMosaic.Lib.ValueLayout

noncomputable section

open scoped BigOperators

namespace Cert.KernelIdeal.Rows0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's three input arrays at their literal types: the rows, the normaliser column, the weights. -/
abbrev xin (c : Dev nD) : FVec Ideal S100000x256 .f32 := V c main_arg3
abbrev nin (c : Dev nD) : FVec Ideal S100000x1 .f32 := V c main_v13
abbrev wts (c : Dev nD) : FVec Ideal S256x128 .bf16 := V c main_v14

theorem hz : (![0, 0] : Fin 2 → Nat) = fun _ => 0 := funext fun a => by fin_cases a <;> rfl

/-! ## The operand indices of the product

  At output index i and contraction index k the left operand is read at (i 0, k) and the right one at (k, i 1):
  one statement per operand axis. -/

/-- Left operand, axis 0: the output's row. -/
theorem lhs_row (i : S2000x128.Idx) (k : dot_S2000x256_S256x128_S2000x128_1_0_0_1_n_n.contr.Idx) :
    (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- Left operand, axis 1: the contraction position. -/
theorem lhs_contr (i : S2000x128.Idx) (k : dot_S2000x256_S256x128_S2000x128_1_0_0_1_n_n.contr.Idx) :
    (dot_S2000x256_S256x128_S2000x128_1_0_0_1_n_n.lhsIdx i k 1).val = (k ⟨0, by decide⟩).val :=
  dot_S2000x256_S256x128_S2000x128_1_0_0_1_n_n.lhsIdx_val_of_single rfl i k
/-- Right operand, axis 0: the contraction position. -/
theorem rhs_contr (i : S2000x128.Idx) (k : dot_S2000x256_S256x128_S2000x128_1_0_0_1_n_n.contr.Idx) :
    (dot_S2000x256_S256x128_S2000x128_1_0_0_1_n_n.rhsIdx i k 0).val = (k ⟨0, by decide⟩).val :=
  dot_S2000x256_S256x128_S2000x128_1_0_0_1_n_n.rhsIdx_val_of_single rfl i k
/-- Right operand, axis 1: the output's column. -/
theorem rhs_col (i : S2000x128.Idx) (k : dot_S2000x256_S256x128_S2000x128_1_0_0_1_n_n.contr.Idx) :
    (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's arithmetic at (p, q): the sum over the contraction positions k of block entry (p, k) times the
    normaliser of row p, times weight (k, q). -/
theorem pay_apply (x0 : Vec Ideal S2000x256 .f32) (x1 : Vec Ideal S2000x1 .f32) (x2 : Vec Ideal S256x128 .bf16) (p : Fin 2000) (q : Fin 128) :
    k0_pay1 x0 x1 x2 (ix2 p q) = ∑ k : Fin 256, (x0 (ix2 p k) * x1 (ix2 p (0 : Fin 1))) * x2 (ix2 k q) := by
  unfold k0_pay1
  rw [shapeCast_self, shapeCast_self]
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_contr _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_contr _ _).trans hk
    | ⟨1, _⟩ => exact rhs_col _ _)
  rw [el, er]
  refine congrArg (· * x2 (ix2 k q)) ?_
  refine congrArg (x0 (ix2 p k) * ·) ?_
  exact broadcastTo_apply x1 _ (ix2 p k) (ix2 p (0 : Fin 1)) fun a => by
    match a with
    | ⟨0, _⟩ => rfl
    | ⟨1, _⟩ => rfl

/-- The printed index maps over the grid: the row windows move together down the rows, one block per point, and
    the weights' window stays on the whole array. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point t writes back is block t of the scaled product. -/
theorem flushed_eq (c : Dev nD) (t : Fin cfg0.N) :
    (dat0 V c).flushed 3 t = ((cfg0.win 3).blk t).view.read (Elt Ideal) (Spec.scaleMatmul (φ := .bf16) (V c main_arg3) (V c main_v13) (V c main_v14)) := by
  show (cfg0.win 3).cut (grid0.coords t) ((dat0 V c).after 3 t) = _
  rw [after0_3]
  unfold out0_3
  rw [View.canon_unit_zero hz]
  simp only [View.ld_unit_zero (S := S2000x256) hz, View.ld_unit_zero (S := S2000x1) hz, View.ld_unit_zero (S := S256x128) hz]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  refine (pay_apply (iblk0 V c 0 t) (iblk0 V c 1 t) (iblk0 V c 2 t) p q).trans ?_
  rw [View.read_apply]
  have hN : cfg0.N = 50 := N_0
  have hr : 2000 * t.val + p.val < 100000 := by have := t.isLt; have := p.isLt; omega
  have hout : ((cfg0.win 3).blk t).view.emb (ix2 p q) = ix2 (⟨2000 * t.val + p.val, hr⟩ : Fin 100000) q := by
    funext a; apply Fin.ext
    match a with
    | ⟨0, _⟩ => show win0_3.index t (0 : Fin 2) * 2000 + 1 * p.val = 2000 * t.val + p.val; omega
    | ⟨1, _⟩ => show win0_3.index t (1 : Fin 2) * 128 + 1 * q.val = q.val; omega
  have h0 : ∀ k : Fin 256, ((cfg0.win 0).blk t).view.emb (ix2 p k) = ix2 (⟨2000 * t.val + p.val, hr⟩ : Fin 100000) k := fun k => by
    funext a; apply Fin.ext
    match a with
    | ⟨0, _⟩ => show win0_0.index t (0 : Fin 2) * 2000 + 1 * p.val = 2000 * t.val + p.val; omega
    | ⟨1, _⟩ => show win0_0.index t (1 : Fin 2) * 256 + 1 * k.val = k.val; omega
  have h1 : ((cfg0.win 1).blk t).view.emb (ix2 p (0 : Fin 1)) = ix2 (⟨2000 * t.val + p.val, hr⟩ : Fin 100000) (0 : Fin 1) := by
    funext a; apply Fin.ext
    match a with
    | ⟨0, _⟩ => show win0_1.index t (0 : Fin 2) * 2000 + 1 * p.val = 2000 * t.val + p.val; omega
    | ⟨1, _⟩ => show win0_1.index t (1 : Fin 2) * 1 + 1 * 0 = 0; omega
  have h2 : ∀ k : Fin 256, ((cfg0.win 2).blk t).view.emb (ix2 k q) = ix2 k q := fun k => by
    funext a; apply Fin.ext
    match a with
    | ⟨0, _⟩ => show win0_2.index t (0 : Fin 2) * 256 + 1 * k.val = k.val; omega
    | ⟨1, _⟩ => show win0_2.index t (1 : Fin 2) * 128 + 1 * q.val = q.val; omega
  rw [hout]
  show ∑ k : Fin 256, (xin V c (((cfg0.win 0).blk t).view.emb (ix2 p k)) * nin V c (((cfg0.win 1).blk t).view.emb (ix2 p (0 : Fin 1))))
        * wts V c (((cfg0.win 2).blk t).view.emb (ix2 k q))
    = ∑ k : Fin 256, (xin V c (ix2 (⟨2000 * t.val + p.val, hr⟩ : Fin 100000) k) * nin V c (ix2 (⟨2000 * t.val + p.val, hr⟩ : Fin 100000) (0 : Fin 1)))
        * wts V c (ix2 k q)
  refine Finset.sum_congr rfl fun k _ => ?_
  rw [h0 k, h1, h2 k]

/-- An index of the output is in point t's block iff its row is among the block's 2000 rows. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Every index of the output lies in the block of the point its row belongs to. -/
theorem cover (i : S100000x128.Idx) : ∃ t : Fin cfg0.N, (cfg0.win 3).flush t = true ∧ i ∈ ((cfg0.win 3).blk t).view.set := by
  have hN : cfg0.N = 50 := N_0
  have hi0 : (i 0).val < 100000 := (i 0).isLt
  have hi1 : (i 1).val < 128 := (i 1).isLt
  refine ⟨⟨(i 0).val / 2000, by omega⟩, flush0_3 _, ?_⟩
  rw [mem_blk]
  obtain ⟨-, -, -, -, -, -, e6, e7⟩ := idx_facts ⟨(i 0).val / 2000, by omega⟩
  intro a
  match a with
  | ⟨0, _⟩ => show win0_3.index _ (0 : Fin 2) * 2000 ≤ (i 0).val ∧ (i 0).val < win0_3.index _ (0 : Fin 2) * 2000 + 2000; rw [e6]; show (i 0).val / 2000 * 2000 ≤ _ ∧ _ < (i 0).val / 2000 * 2000 + 2000; omega
  | ⟨1, _⟩ => show win0_3.index _ (1 : Fin 2) * 128 ≤ (i 1).val ∧ (i 1).val < win0_3.index _ (1 : Fin 2) * 128 + 128; rw [e7]; omega

/-- After the region the output array is the scaled product. -/
theorem arr (c : Dev nD) : (dat0 V c).arrAt 3 cfg0.N = Spec.scaleMatmul (φ := .bf16) (V c main_arg3) (V c main_v13) (V c main_v14) :=
  (dat0 V c).arrAt_eq_of_cover 3 _ (fun t _ => flushed_eq V c t) cover

end Cert.KernelIdeal.Rows0

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Region1.lean ====
/-
  The second kernel region finishes a graph-convolution layer: every row of its input is scaled by that row's
  normaliser, the bias row is added, and the result is clamped below at the value of the zero word.

  One grid point handles 2000 consecutive rows: it reads rows 2000 t … 2000 t + 1999 of the input and of the
  one-column normaliser and the whole one-row bias, computes max (x (p, q) · n (p) + b (q), z) for the block, and
  writes the block back to the same rows of the output.  The fifty blocks tile the output, so after the region
  the output array is `Spec.finalize` of the three arrays the region found.
-/
import proofs.«135295_j45483703664785_1_alg».proof.Proof.Gen.KernelIdeal.Frame
import proofs.«135295_j45483703664785_1_alg».proof.Proof.Spec
import proofs.«135295_j45483703664785_1_alg».proof.Proof.LibKeepdims
import Idealize.ShloMosaic.Lib.Pipeline.Value
import Idealize.ShloMosaic.Lib.ValueLayout

noncomputable section

namespace Cert.KernelIdeal.Rows1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's three input arrays at their literal types. -/
abbrev xin (c : Dev nD) : FVec Ideal S100000x128 .f32 := V c main_v26
abbrev nin (c : Dev nD) : FVec Ideal S100000x1 .f32 := V c main_v13
abbrev bin (c : Dev nD) : FVec Ideal S1x128 .f32 := V c main_v15

theorem hz : (![0, 0] : Fin 2 → Nat) = fun _ => 0 := funext fun a => by fin_cases a <;> rfl

/-- The body's arithmetic at (p, q): the block entry times the normaliser of row p, plus the bias of column q,
    clamped below at the zero word's value. -/
theorem pay_apply (x0 : Vec Ideal S2000x128 .f32) (x1 : Vec Ideal S2000x1 .f32) (x2 : Vec Ideal S1x128 .f32) (p : Fin 2000) (q : Fin 128) :
    k1_pay1 x0 x1 x2 (ix2 p q)
      = max (x0 (ix2 p q) * x1 (ix2 p (0 : Fin 1)) + x2 (ix2 (0 : Fin 1) q)) (Ideal.ofBits .f32 0x00000000#32) := by
  unfold k1_pay1
  rw [shapeCast_self, shapeCast_self]
  have hcol : broadcastTo S2000x128 x1 broadcasts_S2000x1_S2000x128 (ix2 p q) = x1 (ix2 p (0 : Fin 1)) :=
    broadcastTo_apply x1 _ (ix2 p q) (ix2 p (0 : Fin 1)) fun a => by
      match a with
      | ⟨0, _⟩ => rfl
      | ⟨1, _⟩ => rfl
  have hrow : broadcastTo S2000x128 (shapeCast S1x128 x2 shapeCasts_S1x128_S1x128) broadcasts_S1x128_S2000x128 (ix2 p q)
      = x2 (ix2 (0 : Fin 1) q) := Cert.LibKeepdims.row_broadcast_apply x2 _ _ p q
  exact congrArg₂ max (congrArg₂ (· + ·) (congrArg (x0 (ix2 p q) * ·) hcol) hrow) rfl

/-- The printed index maps over the grid: the input, the normaliser and the output move together down the rows,
    one block per point; the bias row stays. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point t writes back is block t of the finished array. -/
theorem flushed_eq (c : Dev nD) (t : Fin cfg1.N) :
    (dat1 V c).flushed 3 t = ((cfg1.win 3).blk t).view.read (Elt Ideal) (Spec.finalize (V c main_v26) (V c main_v13) (V c main_v15)) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz, View.ld_unit_zero (S := S1x128) hz]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  refine (pay_apply (iblk1 V c 0 t) (iblk1 V c 1 t) (iblk1 V c 2 t) p q).trans ?_
  rw [View.read_apply]
  have hN : cfg1.N = 50 := N_1
  have hr : 2000 * t.val + p.val < 100000 := by have := t.isLt; have := p.isLt; omega
  have hout : ((cfg1.win 3).blk t).view.emb (ix2 p q) = ix2 (⟨2000 * t.val + p.val, hr⟩ : Fin 100000) q := by
    funext a; apply Fin.ext
    match a with
    | ⟨0, _⟩ => show win1_3.index t (0 : Fin 2) * 2000 + 1 * p.val = 2000 * t.val + p.val; omega
    | ⟨1, _⟩ => show win1_3.index t (1 : Fin 2) * 128 + 1 * q.val = q.val; omega
  have h0 : ((cfg1.win 0).blk t).view.emb (ix2 p q) = ix2 (⟨2000 * t.val + p.val, hr⟩ : Fin 100000) q := by
    funext a; apply Fin.ext
    match a with
    | ⟨0, _⟩ => show win1_0.index t (0 : Fin 2) * 2000 + 1 * p.val = 2000 * t.val + p.val; omega
    | ⟨1, _⟩ => show win1_0.index t (1 : Fin 2) * 128 + 1 * q.val = q.val; omega
  have h1 : ((cfg1.win 1).blk t).view.emb (ix2 p (0 : Fin 1)) = ix2 (⟨2000 * t.val + p.val, hr⟩ : Fin 100000) (0 : Fin 1) := by
    funext a; apply Fin.ext
    match a with
    | ⟨0, _⟩ => show win1_1.index t (0 : Fin 2) * 2000 + 1 * p.val = 2000 * t.val + p.val; omega
    | ⟨1, _⟩ => show win1_1.index t (1 : Fin 2) * 1 + 1 * 0 = 0; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  rw [hout]
  show max (xin V c (((cfg1.win 0).blk t).view.emb (ix2 p q)) * nin V c (((cfg1.win 1).blk t).view.emb (ix2 p (0 : Fin 1)))
        + bin V c (((cfg1.win 2).blk t).view.emb (ix2 (0 : Fin 1) q))) (Ideal.ofBits .f32 0x00000000#32)
    = max (xin V c (ix2 (⟨2000 * t.val + p.val, hr⟩ : Fin 100000) q) * nin V c (ix2 (⟨2000 * t.val + p.val, hr⟩ : Fin 100000) (0 : Fin 1))
        + bin V c (ix2 (0 : Fin 1) q)) (Ideal.ofBits .f32 0x00000000#32)
  rw [h0, h1, h2]

/-- An index of the output is in point t's block iff its row is among the block's 2000 rows. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- Every index of the output lies in the block of the point its row belongs to. -/
theorem cover (i : S100000x128.Idx) : ∃ t : Fin cfg1.N, (cfg1.win 3).flush t = true ∧ i ∈ ((cfg1.win 3).blk t).view.set := by
  have hN : cfg1.N = 50 := N_1
  have hi0 : (i 0).val < 100000 := (i 0).isLt
  have hi1 : (i 1).val < 128 := (i 1).isLt
  refine ⟨⟨(i 0).val / 2000, by omega⟩, flush1_3 _, ?_⟩
  rw [mem_blk]
  obtain ⟨-, -, -, -, -, -, e6, e7⟩ := idx_facts ⟨(i 0).val / 2000, by omega⟩
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ _ ∧ _ < (i 0).val / 2000 * 2000 + 2000; omega
  | ⟨1, _⟩ => show win1_3.index _ (1 : Fin 2) * 128 ≤ (i 1).val ∧ (i 1).val < win1_3.index _ (1 : Fin 2) * 128 + 128; rw [e7]; omega

/-- After the region the output array is the finished array. -/
theorem arr (c : Dev nD) : (dat1 V c).arrAt 3 cfg1.N = Spec.finalize (V c main_v26) (V c main_v13) (V c main_v15) :=
  (dat1 V c).arrAt_eq_of_cover 3 _ (fun t _ => flushed_eq V c t) cover

end Cert.KernelIdeal.Rows1

end
-- ==== Proof.Region2.lean ====
/-
  The third kernel region scales every row of its input by that row's normaliser.

  One grid point handles 2000 consecutive rows: it reads rows 2000 t … 2000 t + 1999 of the input and of the
  one-column normaliser, multiplies entry (p, q) of the block by the normaliser of row p, and writes the block
  back to the same rows of the output.  The fifty blocks tile the output, so after the region the output array
  is `Spec.scale` of the two arrays the region found.
-/
import proofs.«135295_j45483703664785_1_alg».proof.Proof.Gen.KernelIdeal.Frame
import proofs.«135295_j45483703664785_1_alg».proof.Proof.Spec
import Idealize.ShloMosaic.Lib.Pipeline.Value
import Idealize.ShloMosaic.Lib.ValueLayout

noncomputable section

namespace Cert.KernelIdeal.Rows2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's two input arrays at their literal types. -/
abbrev xin (c : Dev nD) : FVec Ideal S100000x128 .f32 := V c main_v27
abbrev nin (c : Dev nD) : FVec Ideal S100000x1 .f32 := V c main_v13

theorem hz : (![0, 0] : Fin 2 → Nat) = fun _ => 0 := funext fun a => by fin_cases a <;> rfl

/-- The body's arithmetic at (p, q): the block entry times the normaliser of row p. -/
theorem pay_apply (x0 : Vec Ideal S2000x128 .f32) (x1 : Vec Ideal S2000x1 .f32) (p : Fin 2000) (q : Fin 128) :
    k2_pay1 x0 x1 (ix2 p q) = x0 (ix2 p q) * x1 (ix2 p (0 : Fin 1)) := by
  unfold k2_pay1
  rw [shapeCast_self, shapeCast_self]
  refine congrArg (x0 (ix2 p q) * ·) ?_
  exact broadcastTo_apply x1 _ (ix2 p q) (ix2 p (0 : Fin 1)) fun a => by
    match a with
    | ⟨0, _⟩ => rfl
    | ⟨1, _⟩ => rfl

/-- The printed index maps over the grid: the three windows move together down the rows, one block per point. -/
theorem idx_facts : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the scaled array. -/
theorem flushed_eq (c : Dev nD) (t : Fin cfg2.N) :
    (dat2 V c).flushed 2 t = ((cfg2.win 2).blk t).view.read (Elt Ideal) (Spec.scale (V c main_v27) (V c main_v13)) := by
  show (cfg2.win 2).cut (grid2.coords t) ((dat2 V c).after 2 t) = _
  rw [after2_2]
  unfold out2_2
  rw [View.canon_unit_zero hz]
  simp only [View.ld_unit_zero (S := S2000x128) hz, View.ld_unit_zero (S := S2000x1) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply (iblk2 V c 0 t) (iblk2 V c 1 t) p q).trans ?_
  rw [View.read_apply]
  have hN : cfg2.N = 50 := N_2
  have hr : 2000 * t.val + p.val < 100000 := by have := t.isLt; have := p.isLt; omega
  have hout : ((cfg2.win 2).blk t).view.emb (ix2 p q) = ix2 (⟨2000 * t.val + p.val, hr⟩ : Fin 100000) q := by
    funext a; apply Fin.ext
    match a with
    | ⟨0, _⟩ => show win2_2.index t (0 : Fin 2) * 2000 + 1 * p.val = 2000 * t.val + p.val; omega
    | ⟨1, _⟩ => show win2_2.index t (1 : Fin 2) * 128 + 1 * q.val = q.val; omega
  have h0 : ((cfg2.win 0).blk t).view.emb (ix2 p q) = ix2 (⟨2000 * t.val + p.val, hr⟩ : Fin 100000) q := by
    funext a; apply Fin.ext
    match a with
    | ⟨0, _⟩ => show win2_0.index t (0 : Fin 2) * 2000 + 1 * p.val = 2000 * t.val + p.val; omega
    | ⟨1, _⟩ => show win2_0.index t (1 : Fin 2) * 128 + 1 * q.val = q.val; omega
  have h1 : ((cfg2.win 1).blk t).view.emb (ix2 p (0 : Fin 1)) = ix2 (⟨2000 * t.val + p.val, hr⟩ : Fin 100000) (0 : Fin 1) := by
    funext a; apply Fin.ext
    match a with
    | ⟨0, _⟩ => show win2_1.index t (0 : Fin 2) * 2000 + 1 * p.val = 2000 * t.val + p.val; omega
    | ⟨1, _⟩ => show win2_1.index t (1 : Fin 2) * 1 + 1 * 0 = 0; omega
  rw [hout]
  show xin V c (((cfg2.win 0).blk t).view.emb (ix2 p q)) * nin V c (((cfg2.win 1).blk t).view.emb (ix2 p (0 : Fin 1)))
    = xin V c (ix2 (⟨2000 * t.val + p.val, hr⟩ : Fin 100000) q) * nin V c (ix2 (⟨2000 * t.val + p.val, hr⟩ : Fin 100000) (0 : Fin 1))
  rw [h0, h1]

/-- An index of the output is in point t's block iff its row is among the block's 2000 rows. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v30).slice (win2_2.rect t)).set ↔ _
  rw [View.set_slice_whole, Rect.mem_set_unit]
  exact Iff.rfl

/-- Every index of the output lies in the block of the point its row belongs to. -/
theorem cover (i : S100000x128.Idx) : ∃ t : Fin cfg2.N, (cfg2.win 2).flush t = true ∧ i ∈ ((cfg2.win 2).blk t).view.set := by
  have hN : cfg2.N = 50 := N_2
  have hi0 : (i 0).val < 100000 := (i 0).isLt
  have hi1 : (i 1).val < 128 := (i 1).isLt
  refine ⟨⟨(i 0).val / 2000, by omega⟩, flush2_2 _, ?_⟩
  rw [mem_blk]
  obtain ⟨-, -, -, -, e4, e5⟩ := idx_facts ⟨(i 0).val / 2000, by omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ _ ∧ _ < (i 0).val / 2000 * 2000 + 2000; omega
  | ⟨1, _⟩ => show win2_2.index _ (1 : Fin 2) * 128 ≤ (i 1).val ∧ (i 1).val < win2_2.index _ (1 : Fin 2) * 128 + 128; rw [e5]; omega

/-- After the region the output array is the scaled array. -/
theorem arr (c : Dev nD) : (dat2 V c).arrAt 2 cfg2.N = Spec.scale (V c main_v27) (V c main_v13) :=
  (dat2 V c).arrAt_eq_of_cover 2 _ (fun t _ => flushed_eq V c t) cover

end Cert.KernelIdeal.Rows2

end
-- ==== Proof.Region3.lean ====
/-
  The fourth kernel region multiplies every row of its input into a square matrix of weights.

  One grid point handles 2000 consecutive rows: it reads rows 2000 t … 2000 t + 1999 of the input and the whole
  128 × 128 weight matrix, forms at (p, q) the sum over k of the block's entry (p, k) times the weight (k, q), and
  writes the block back to the same rows of the output.  The fifty blocks tile the output, so after the region the
  output array is `Spec.matmul` of the two arrays the region found.
-/
import proofs.«135295_j45483703664785_1_alg».proof.Proof.Gen.KernelIdeal.Frame
import proofs.«135295_j45483703664785_1_alg».proof.Proof.Spec
import Idealize.ShloMosaic.Lib.Pipeline.Value
import Idealize.ShloMosaic.Lib.ValueLayout

noncomputable section

open scoped BigOperators

namespace Cert.KernelIdeal.Rows3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's two input arrays at their literal types: the rows and the weights. -/
abbrev xin (c : Dev nD) : FVec Ideal S100000x128 .f32 := V c main_v40
abbrev wts (c : Dev nD) : FVec Ideal S128x128 .bf16 := V c main_v28

theorem hz : (![0, 0] : Fin 2 → Nat) = fun _ => 0 := funext fun a => by fin_cases a <;> rfl

/-! The product's two operand indices, axis by axis: the left operand is read at (row of the output, contraction
    index), the right operand at (contraction index, column of the output). -/

theorem lhs_axis0 (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
theorem rhs_axis0 (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
theorem rhs_axis1 (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's arithmetic at (p, q): row p of the block multiplied into column q of the weights.  The change of
    format before the product is the identity on the extended reals, and the accumulator is the zero splat. -/
theorem pay_apply (x0 : Vec Ideal S2000x128 .f32) (x1 : Vec Ideal S128x128 .bf16) (p : Fin 2000) (q : Fin 128) :
    k3_pay1 x0 x1 (ix2 p q) = ∑ k : Fin 128, x0 (ix2 p k) * x1 (ix2 k q) := by
  unfold k3_pay1
  rw [shapeCast_self, shapeCast_self]
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-- The printed index maps over the grid: the input's and the output's blocks move together down the rows, one
    block per point, and the weights' window stays on the whole matrix. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the product. -/
theorem flushed_eq (c : Dev nD) (t : Fin cfg3.N) :
    (dat3 V c).flushed 2 t = ((cfg3.win 2).blk t).view.read (Elt Ideal) (Spec.matmul (φ := .bf16) (V c main_v40) (V c main_v28)) := by
  show (cfg3.win 2).cut (grid3.coords t) ((dat3 V c).after 2 t) = _
  rw [after3_2]
  unfold out3_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply (iblk3 V c 0 t) (iblk3 V c 1 t) p q).trans ?_
  rw [View.read_apply]
  have hN : cfg3.N = 50 := N_3
  have hr : 2000 * t.val + p.val < 100000 := by have := t.isLt; have := p.isLt; omega
  have hout : ((cfg3.win 2).blk t).view.emb (ix2 p q) = ix2 (⟨2000 * t.val + p.val, hr⟩ : Fin 100000) q := by
    funext a; apply Fin.ext
    match a with
    | ⟨0, _⟩ => show win3_2.index t (0 : Fin 2) * 2000 + 1 * p.val = 2000 * t.val + p.val; omega
    | ⟨1, _⟩ => show win3_2.index t (1 : Fin 2) * 128 + 1 * q.val = q.val; omega
  have h0 : ∀ k : Fin 128, ((cfg3.win 0).blk t).view.emb (ix2 p k) = ix2 (⟨2000 * t.val + p.val, hr⟩ : Fin 100000) k := fun k => by
    funext a; apply Fin.ext
    match a with
    | ⟨0, _⟩ => show win3_0.index t (0 : Fin 2) * 2000 + 1 * p.val = 2000 * t.val + p.val; omega
    | ⟨1, _⟩ => show win3_0.index t (1 : Fin 2) * 128 + 1 * k.val = k.val; omega
  have h1 : ∀ k : Fin 128, ((cfg3.win 1).blk t).view.emb (ix2 k q) = ix2 k q := fun k => by
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  rw [hout]
  show ∑ k : Fin 128, xin V c (((cfg3.win 0).blk t).view.emb (ix2 p k)) * wts V c (((cfg3.win 1).blk t).view.emb (ix2 k q))
    = ∑ k : Fin 128, xin V c (ix2 (⟨2000 * t.val + p.val, hr⟩ : Fin 100000) k) * wts V c (ix2 k q)
  exact Finset.sum_congr rfl fun k _ => by rw [h0 k, h1 k]

/-- An index of the output is in point t's block iff its row is among the block's 2000 rows. -/
theorem mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v41).slice (win3_2.rect t)).set ↔ _
  rw [View.set_slice_whole, Rect.mem_set_unit]
  exact Iff.rfl

/-- Every index of the output lies in the block of the point its row belongs to. -/
theorem cover (i : S100000x128.Idx) : ∃ t : Fin cfg3.N, (cfg3.win 2).flush t = true ∧ i ∈ ((cfg3.win 2).blk t).view.set := by
  have hN : cfg3.N = 50 := N_3
  have hi0 : (i 0).val < 100000 := (i 0).isLt
  have hi1 : (i 1).val < 128 := (i 1).isLt
  refine ⟨⟨(i 0).val / 2000, by omega⟩, flush3_2 _, ?_⟩
  rw [mem_blk]
  obtain ⟨-, -, -, -, e4, e5⟩ := idx_facts ⟨(i 0).val / 2000, by omega⟩
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ _ ∧ _ < (i 0).val / 2000 * 2000 + 2000; omega
  | ⟨1, _⟩ => show win3_2.index _ (1 : Fin 2) * 128 ≤ (i 1).val ∧ (i 1).val < win3_2.index _ (1 : Fin 2) * 128 + 128; rw [e5]; omega

/-- After the region the output array is the product of the rows and the weights. -/
theorem arr (c : Dev nD) : (dat3 V c).arrAt 2 cfg3.N = Spec.matmul (φ := .bf16) (V c main_v40) (V c main_v28) :=
  (dat3 V c).arrAt_eq_of_cover 2 _ (fun t _ => flushed_eq V c t) cover

end Cert.KernelIdeal.Rows3

end
-- ==== Proof.Region4.lean ====
/-
  The fifth kernel region finishes a graph-convolution layer: every row of its input is scaled by that row's
  normaliser, the bias row is added, and the result is clamped below at the value of the zero word.

  One grid point handles 2000 consecutive rows: it reads rows 2000 t … 2000 t + 1999 of the input and of the
  one-column normaliser and the whole one-row bias, computes max (x (p, q) · n (p) + b (q), z) for the block, and
  writes the block back to the same rows of the output.  The fifty blocks tile the output, so after the region
  the output array is `Spec.finalize` of the three arrays the region found.
-/
import proofs.«135295_j45483703664785_1_alg».proof.Proof.Gen.KernelIdeal.Frame
import proofs.«135295_j45483703664785_1_alg».proof.Proof.Spec
import proofs.«135295_j45483703664785_1_alg».proof.Proof.LibKeepdims
import Idealize.ShloMosaic.Lib.Pipeline.Value
import Idealize.ShloMosaic.Lib.ValueLayout

noncomputable section

namespace Cert.KernelIdeal.Rows4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's three input arrays at their literal types. -/
abbrev xin (c : Dev nD) : FVec Ideal S100000x128 .f32 := V c main_v41
abbrev nin (c : Dev nD) : FVec Ideal S100000x1 .f32 := V c main_v13
abbrev bin (c : Dev nD) : FVec Ideal S1x128 .f32 := V c main_v29

theorem hz : (![0, 0] : Fin 2 → Nat) = fun _ => 0 := funext fun a => by fin_cases a <;> rfl

/-- The body's arithmetic at (p, q): the block entry times the normaliser of row p, plus the bias of column q,
    clamped below at the zero word's value. -/
theorem pay_apply (x0 : Vec Ideal S2000x128 .f32) (x1 : Vec Ideal S2000x1 .f32) (x2 : Vec Ideal S1x128 .f32) (p : Fin 2000) (q : Fin 128) :
    k4_pay1 x0 x1 x2 (ix2 p q)
      = max (x0 (ix2 p q) * x1 (ix2 p (0 : Fin 1)) + x2 (ix2 (0 : Fin 1) q)) (Ideal.ofBits .f32 0x00000000#32) := by
  unfold k4_pay1
  rw [shapeCast_self, shapeCast_self]
  have hcol : broadcastTo S2000x128 x1 broadcasts_S2000x1_S2000x128 (ix2 p q) = x1 (ix2 p (0 : Fin 1)) :=
    broadcastTo_apply x1 _ (ix2 p q) (ix2 p (0 : Fin 1)) fun a => by
      match a with
      | ⟨0, _⟩ => rfl
      | ⟨1, _⟩ => rfl
  have hrow : broadcastTo S2000x128 (shapeCast S1x128 x2 shapeCasts_S1x128_S1x128) broadcasts_S1x128_S2000x128 (ix2 p q)
      = x2 (ix2 (0 : Fin 1) q) := Cert.LibKeepdims.row_broadcast_apply x2 _ _ p q
  exact congrArg₂ max (congrArg₂ (· + ·) (congrArg (x0 (ix2 p q) * ·) hcol) hrow) rfl

/-- The printed index maps over the grid: the input, the normaliser and the output move together down the rows,
    one block per point; the bias row stays. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- What point t writes back is block t of the finished array. -/
theorem flushed_eq (c : Dev nD) (t : Fin cfg4.N) :
    (dat4 V c).flushed 3 t = ((cfg4.win 3).blk t).view.read (Elt Ideal) (Spec.finalize (V c main_v41) (V c main_v13) (V c main_v29)) := by
  show (cfg4.win 3).cut (grid4.coords t) ((dat4 V c).after 3 t) = _
  rw [after4_3]
  unfold out4_3
  rw [View.canon_unit_zero hz]
  simp only [View.ld_unit_zero (S := S2000x128) hz, View.ld_unit_zero (S := S2000x1) hz, View.ld_unit_zero (S := S1x128) hz]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  refine (pay_apply (iblk4 V c 0 t) (iblk4 V c 1 t) (iblk4 V c 2 t) p q).trans ?_
  rw [View.read_apply]
  have hN : cfg4.N = 50 := N_4
  have hr : 2000 * t.val + p.val < 100000 := by have := t.isLt; have := p.isLt; omega
  have hout : ((cfg4.win 3).blk t).view.emb (ix2 p q) = ix2 (⟨2000 * t.val + p.val, hr⟩ : Fin 100000) q := by
    funext a; apply Fin.ext
    match a with
    | ⟨0, _⟩ => show win4_3.index t (0 : Fin 2) * 2000 + 1 * p.val = 2000 * t.val + p.val; omega
    | ⟨1, _⟩ => show win4_3.index t (1 : Fin 2) * 128 + 1 * q.val = q.val; omega
  have h0 : ((cfg4.win 0).blk t).view.emb (ix2 p q) = ix2 (⟨2000 * t.val + p.val, hr⟩ : Fin 100000) q := by
    funext a; apply Fin.ext
    match a with
    | ⟨0, _⟩ => show win4_0.index t (0 : Fin 2) * 2000 + 1 * p.val = 2000 * t.val + p.val; omega
    | ⟨1, _⟩ => show win4_0.index t (1 : Fin 2) * 128 + 1 * q.val = q.val; omega
  have h1 : ((cfg4.win 1).blk t).view.emb (ix2 p (0 : Fin 1)) = ix2 (⟨2000 * t.val + p.val, hr⟩ : Fin 100000) (0 : Fin 1) := by
    funext a; apply Fin.ext
    match a with
    | ⟨0, _⟩ => show win4_1.index t (0 : Fin 2) * 2000 + 1 * p.val = 2000 * t.val + p.val; omega
    | ⟨1, _⟩ => show win4_1.index t (1 : Fin 2) * 1 + 1 * 0 = 0; omega
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 128 + 1 * q.val = q.val; omega
  rw [hout]
  show max (xin V c (((cfg4.win 0).blk t).view.emb (ix2 p q)) * nin V c (((cfg4.win 1).blk t).view.emb (ix2 p (0 : Fin 1)))
        + bin V c (((cfg4.win 2).blk t).view.emb (ix2 (0 : Fin 1) q))) (Ideal.ofBits .f32 0x00000000#32)
    = max (xin V c (ix2 (⟨2000 * t.val + p.val, hr⟩ : Fin 100000) q) * nin V c (ix2 (⟨2000 * t.val + p.val, hr⟩ : Fin 100000) (0 : Fin 1))
        + bin V c (ix2 (0 : Fin 1) q)) (Ideal.ofBits .f32 0x00000000#32)
  rw [h0, h1, h2]

/-- An index of the output is in point t's block iff its row is among the block's 2000 rows. -/
theorem mem_blk (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v42).slice (win4_3.rect t)).set ↔ _
  rw [View.set_slice_whole, Rect.mem_set_unit]
  exact Iff.rfl

/-- Every index of the output lies in the block of the point its row belongs to. -/
theorem cover (i : S100000x128.Idx) : ∃ t : Fin cfg4.N, (cfg4.win 3).flush t = true ∧ i ∈ ((cfg4.win 3).blk t).view.set := by
  have hN : cfg4.N = 50 := N_4
  have hi0 : (i 0).val < 100000 := (i 0).isLt
  have hi1 : (i 1).val < 128 := (i 1).isLt
  refine ⟨⟨(i 0).val / 2000, by omega⟩, flush4_3 _, ?_⟩
  rw [mem_blk]
  obtain ⟨-, -, -, -, -, -, e6, e7⟩ := idx_facts ⟨(i 0).val / 2000, by omega⟩
  intro a
  match a with
  | ⟨0, _⟩ => show win4_3.index _ (0 : Fin 2) * 2000 ≤ (i 0).val ∧ (i 0).val < win4_3.index _ (0 : Fin 2) * 2000 + 2000; rw [e6]; show (i 0).val / 2000 * 2000 ≤ _ ∧ _ < (i 0).val / 2000 * 2000 + 2000; omega
  | ⟨1, _⟩ => show win4_3.index _ (1 : Fin 2) * 128 ≤ (i 1).val ∧ (i 1).val < win4_3.index _ (1 : Fin 2) * 128 + 128; rw [e7]; omega

/-- After the region the output array is the finished array. -/
theorem arr (c : Dev nD) : (dat4 V c).arrAt 3 cfg4.N = Spec.finalize (V c main_v41) (V c main_v13) (V c main_v29) :=
  (dat4 V c).arrAt_eq_of_cover 3 _ (fun t _ => flushed_eq V c t) cover

end Cert.KernelIdeal.Rows4

end
-- ==== Proof.Region5.lean ====
/-
  The sixth kernel region multiplies every row of its input into the final weights and adds the bias.

  One grid point handles 2000 consecutive rows: it reads rows 2000 t … 2000 t + 1999 of the input, the whole
  128 × 16 weight matrix and the one-row bias, forms at (p, q) the sum over k of the block's entry (p, k) times the
  weight (k, q), adds the bias of column q, and writes the 2000 × 16 block to the same rows of the output.  The
  fifty blocks tile the output, so after the region the output array is `Spec.finalLinear` of the three arrays
  the region found.
-/
import proofs.«135295_j45483703664785_1_alg».proof.Proof.Gen.KernelIdeal.Frame
import proofs.«135295_j45483703664785_1_alg».proof.Proof.Spec
import Idealize.ShloMosaic.Lib.Pipeline.Value
import Idealize.ShloMosaic.Lib.ValueLayout

noncomputable section

open scoped BigOperators

namespace Cert.KernelIdeal.Rows5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's three input arrays at their literal types: the rows, the weights and the one-row bias. -/
abbrev xin (c : Dev nD) : FVec Ideal S100000x128 .f32 := V c main_v42
abbrev wts (c : Dev nD) : FVec Ideal S128x16 .bf16 := V c main_v44
abbrev bias (c : Dev nD) : FVec Ideal S1x16 .f32 := V c main_v45

theorem hz : (![0, 0] : Fin 2 → Nat) = fun _ => 0 := funext fun a => by fin_cases a <;> rfl

/-! The product's two operand indices, axis by axis: the left operand is read at (row of the output, contraction
    index), the right operand at (contraction index, column of the output). -/

theorem lhs_axis0 (i : S2000x16.Idx) (r : dot_S2000x128_S128x16_S2000x16_1_0_0_1_n_n.contr.Idx) :
    (dot_S2000x128_S128x16_S2000x16_1_0_0_1_n_n.lhsIdx i r 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs_axis1 (i : S2000x16.Idx) (r : dot_S2000x128_S128x16_S2000x16_1_0_0_1_n_n.contr.Idx) :
    (dot_S2000x128_S128x16_S2000x16_1_0_0_1_n_n.lhsIdx i r 1).val = (r ⟨0, by decide⟩).val :=
  dot_S2000x128_S128x16_S2000x16_1_0_0_1_n_n.lhsIdx_val_of_single rfl i r
theorem rhs_axis0 (i : S2000x16.Idx) (r : dot_S2000x128_S128x16_S2000x16_1_0_0_1_n_n.contr.Idx) :
    (dot_S2000x128_S128x16_S2000x16_1_0_0_1_n_n.rhsIdx i r 0).val = (r ⟨0, by decide⟩).val :=
  dot_S2000x128_S128x16_S2000x16_1_0_0_1_n_n.rhsIdx_val_of_single rfl i r
theorem rhs_axis1 (i : S2000x16.Idx) (r : dot_S2000x128_S128x16_S2000x16_1_0_0_1_n_n.contr.Idx) :
    (dot_S2000x128_S128x16_S2000x16_1_0_0_1_n_n.rhsIdx i r 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- The body's arithmetic at (p, q): row p of the block multiplied into column q of the weights, plus the bias of
    column q.  The change of format before the product is the identity on the extended reals, the accumulator is
    the zero splat, and the one-row bias broadcast down the rows reads its only row. -/
theorem pay_apply (x0 : Vec Ideal S2000x128 .f32) (x1 : Vec Ideal S128x16 .bf16) (x2 : Vec Ideal S1x16 .f32) (p : Fin 2000) (q : Fin 16) :
    k5_pay1 x0 x1 x2 (ix2 p q) = (∑ k : Fin 128, x0 (ix2 p k) * x1 (ix2 k q)) + x2 (ix2 (0 : Fin 1) q) := by
  unfold k5_pay1
  rw [shapeCast_self, shapeCast_self, shapeCast_self]
  simp only [matmul]
  rw [addf_apply, broadcastTo_1b_ab_apply]
  refine congrArg (· + x2 (ix2 (0 : Fin 1) q)) ?_
  rw [Ideal.matmul_constant_zero_apply, ← Equiv.sum_comp (ValueIdx.contrEquiv1 dot_S2000x128_S128x16_S2000x16_1_0_0_1_n_n 128 rfl rfl).symm]
  refine Finset.sum_congr rfl fun k _ => ?_
  have hk := ValueIdx.contrEquiv1_symm_val dot_S2000x128_S128x16_S2000x16_1_0_0_1_n_n 128 rfl rfl k
  have el : dot_S2000x128_S128x16_S2000x16_1_0_0_1_n_n.lhsIdx (ix2 p q) ((ValueIdx.contrEquiv1 dot_S2000x128_S128x16_S2000x16_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x16_S2000x16_1_0_0_1_n_n.rhsIdx (ix2 p q) ((ValueIdx.contrEquiv1 dot_S2000x128_S128x16_S2000x16_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-- The printed index maps over the grid: the input's and the output's blocks move together down the rows, one
    block per point, and the windows of the weights and of the bias stay on their whole arrays. -/
theorem idx_facts : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- What point t writes back is block t of the product shifted by the bias. -/
theorem flushed_eq (c : Dev nD) (t : Fin cfg5.N) :
    (dat5 V c).flushed 3 t = ((cfg5.win 3).blk t).view.read (Elt Ideal) (Spec.finalLinear (φ := .bf16) (V c main_v42) (V c main_v44) (V c main_v45)) := by
  show (cfg5.win 3).cut (grid5.coords t) ((dat5 V c).after 3 t) = _
  rw [after5_3]
  unfold out5_3
  rw [View.canon_unit_zero hz]
  simp only [View.ld_unit_zero (S := S2000x128) hz, View.ld_unit_zero (S := S128x16) hz, View.ld_unit_zero (S := S1x16) hz]
  obtain ⟨e0, e1, e2, e3, e4, e5, e6, e7⟩ := idx_facts t
  funext j
  obtain ⟨p, q, rfl⟩ : ∃ (p : Fin 2000) (q : Fin 16), j = ix2 p q := ⟨j 0, j 1, eq_ix2 j⟩
  refine (pay_apply (iblk5 V c 0 t) (iblk5 V c 1 t) (iblk5 V c 2 t) p q).trans ?_
  rw [View.read_apply]
  have hN : cfg5.N = 50 := N_5
  have hr : 2000 * t.val + p.val < 100000 := by have := t.isLt; have := p.isLt; omega
  have hout : ((cfg5.win 3).blk t).view.emb (ix2 p q) = ix2 (⟨2000 * t.val + p.val, hr⟩ : Fin 100000) q := by
    funext a; apply Fin.ext
    match a with
    | ⟨0, _⟩ => show win5_3.index t (0 : Fin 2) * 2000 + 1 * p.val = 2000 * t.val + p.val; omega
    | ⟨1, _⟩ => show win5_3.index t (1 : Fin 2) * 16 + 1 * q.val = q.val; omega
  have h0 : ∀ k : Fin 128, ((cfg5.win 0).blk t).view.emb (ix2 p k) = ix2 (⟨2000 * t.val + p.val, hr⟩ : Fin 100000) k := fun k => by
    funext a; apply Fin.ext
    match a with
    | ⟨0, _⟩ => show win5_0.index t (0 : Fin 2) * 2000 + 1 * p.val = 2000 * t.val + p.val; omega
    | ⟨1, _⟩ => show win5_0.index t (1 : Fin 2) * 128 + 1 * k.val = k.val; omega
  have h1 : ∀ k : Fin 128, ((cfg5.win 1).blk t).view.emb (ix2 k q) = ix2 k q := fun k => by
    funext a; apply Fin.ext
    match a with
    | ⟨0, _⟩ => show win5_1.index t (0 : Fin 2) * 128 + 1 * k.val = k.val; omega
    | ⟨1, _⟩ => show win5_1.index t (1 : Fin 2) * 16 + 1 * q.val = q.val; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 16 + 1 * q.val = q.val; omega
  rw [hout]
  show (∑ k : Fin 128, xin V c (((cfg5.win 0).blk t).view.emb (ix2 p k)) * wts V c (((cfg5.win 1).blk t).view.emb (ix2 k q)))
      + bias V c (((cfg5.win 2).blk t).view.emb (ix2 (0 : Fin 1) q))
    = (∑ k : Fin 128, xin V c (ix2 (⟨2000 * t.val + p.val, hr⟩ : Fin 100000) k) * wts V c (ix2 k q)) + bias V c (ix2 (0 : Fin 1) q)
  rw [h2]
  exact congrArg (· + bias V c (ix2 (0 : Fin 1) q)) (Finset.sum_congr rfl fun k _ => by rw [h0 k, h1 k])

/-- An index of the output is in point t's block iff its row is among the block's 2000 rows. -/
theorem mem_blk (t : Fin cfg5.N) (i : S100000x16.Idx) :
    i ∈ ((cfg5.win 3).blk t).view.set ↔ ∀ a : Fin 2, win5_3.index t a * S2000x16.size a ≤ (i a).val ∧ (i a).val < win5_3.index t a * S2000x16.size a + S2000x16.size a := by
  show i ∈ ((View.whole main_v46).slice (win5_3.rect t)).set ↔ _
  rw [View.set_slice_whole, Rect.mem_set_unit]
  exact Iff.rfl

/-- Every index of the output lies in the block of the point its row belongs to. -/
theorem cover (i : S100000x16.Idx) : ∃ t : Fin cfg5.N, (cfg5.win 3).flush t = true ∧ i ∈ ((cfg5.win 3).blk t).view.set := by
  have hN : cfg5.N = 50 := N_5
  have hi0 : (i 0).val < 100000 := (i 0).isLt
  have hi1 : (i 1).val < 16 := (i 1).isLt
  refine ⟨⟨(i 0).val / 2000, by omega⟩, flush5_3 _, ?_⟩
  rw [mem_blk]
  obtain ⟨-, -, -, -, -, -, e6, e7⟩ := idx_facts ⟨(i 0).val / 2000, by omega⟩
  intro a
  match a with
  | ⟨0, _⟩ => show win5_3.index _ (0 : Fin 2) * 2000 ≤ (i 0).val ∧ (i 0).val < win5_3.index _ (0 : Fin 2) * 2000 + 2000; rw [e6]; show (i 0).val / 2000 * 2000 ≤ _ ∧ _ < (i 0).val / 2000 * 2000 + 2000; omega
  | ⟨1, _⟩ => show win5_3.index _ (1 : Fin 2) * 16 ≤ (i 1).val ∧ (i 1).val < win5_3.index _ (1 : Fin 2) * 16 + 16; rw [e7]; omega

/-- After the region the output array is the product of the rows and the weights, shifted by the bias. -/
theorem arr (c : Dev nD) : (dat5 V c).arrAt 3 cfg5.N = Spec.finalLinear (φ := .bf16) (V c main_v42) (V c main_v44) (V c main_v45) :=
  (dat5 V c).arrAt_eq_of_cover 3 _ (fun t _ => flushed_eq V c t) cover

end Cert.KernelIdeal.Rows5

end
-- ==== Proof.KernelValue.lean ====
/-
  The kernel program's result read back through its segments.

  The program is thirteen segments: stretches of whole-array host operations and six kernel regions.  The generated
  frame names what every buffer holds at each segment boundary (a fold from the launch memory).  Every buffer is
  written once, so a buffer's contents at a later boundary are its contents where it was written: a stretch's result
  is the operations' term of the stretch's inputs (`HostSide`), a region's output array is the row-wise function of
  the arrays the region found (`Rows0` … `Rows5`), and a buffer a segment does not write is carried across it.
  Walking the boundaries in order gives each intermediate array as a function of the arguments (`Value.nrm` …
  `Value.out`), and at the last boundary the result buffer holds `Value.out` of the arguments.
-/
import proofs.«135295_j45483703664785_1_alg».proof.Proof.KernelRun
import proofs.«135295_j45483703664785_1_alg».proof.Proof.KernelTerm
import proofs.«135295_j45483703664785_1_alg».proof.Proof.Region0
import proofs.«135295_j45483703664785_1_alg».proof.Proof.Region1
import proofs.«135295_j45483703664785_1_alg».proof.Proof.Region2
import proofs.«135295_j45483703664785_1_alg».proof.Proof.Region3
import proofs.«135295_j45483703664785_1_alg».proof.Proof.Region4
import proofs.«135295_j45483703664785_1_alg».proof.Proof.Region5
import Idealize.ShloMosaic.Lib.Pipeline.Value

noncomputable section

namespace Cert.KernelIdeal.Value

open Cert.KernelIdeal Cert.KernelIdeal.Gen Cert.KernelIdeal.HostSide
open Idealize.ShloMosaic Idealize.ShloMosaic.TcCoe Idealize.SL.Sem Idealize.ShloMosaic.StableHlo
open Idealize.ShloMosaic.Pipeline (Dat)

/-! ## The buffers' contents at each segment boundary, read back to the arguments -/

variable (m : (ℓ : Loc nD τ sig) → Buf (Elt Ideal) ℓ) (ρ : Dev nD → PrngReg) (c : Dev nD)

-- after the first stretch
theorem W1_v1 : W1 m ρ c (Proc.devRef .tc main_v1) = srcIdx (m ((c : Thread nD τ).loc main_arg1)) := ops0_v1 _
theorem W1_v3 : W1 m ρ c (Proc.devRef .tc main_v3) = dstIdx (m ((c : Thread nD τ).loc main_arg1)) := ops0_v3 _
theorem W1_v9 : W1 m ρ c (Proc.devRef .tc main_v9) = degree (srcIdx (m ((c : Thread nD τ).loc main_arg1))) := ops0_v9 _
theorem W1_cst_1 : W1 m ρ c (Proc.devRef .tc main_cst_1) = constant (F := Ideal) S_ .f32 0x3F800000#32 := ops0_cst_1 _
theorem W1_arg3 : W1 m ρ c (Proc.devRef .tc main_arg3) = m ((c : Thread nD τ).loc main_arg3) := ops0_arg3 _
theorem W1_arg4 : W1 m ρ c (Proc.devRef .tc main_arg4) = m ((c : Thread nD τ).loc main_arg4) := ops0_arg4 _
theorem W1_arg5 : W1 m ρ c (Proc.devRef .tc main_arg5) = m ((c : Thread nD τ).loc main_arg5) := ops0_arg5 _
theorem W1_arg6 : W1 m ρ c (Proc.devRef .tc main_arg6) = m ((c : Thread nD τ).loc main_arg6) := ops0_arg6 _
theorem W1_arg7 : W1 m ρ c (Proc.devRef .tc main_arg7) = m ((c : Thread nD τ).loc main_arg7) := ops0_arg7 _
theorem W1_arg8 : W1 m ρ c (Proc.devRef .tc main_arg8) = m ((c : Thread nD τ).loc main_arg8) := ops0_arg8 _
theorem W1_arg9 : W1 m ρ c (Proc.devRef .tc main_arg9) = m ((c : Thread nD τ).loc main_arg9) := ops0_arg9 _

-- after the second stretch
theorem W2_v10 : W2 m ρ c (Proc.devRef .tc main_v10) = clampLow (constant (F := Ideal) S_ .f32 0x3F800000#32) (degree (srcIdx (m ((c : Thread nD τ).loc main_arg1)))) :=
  (ops01_v10 _).trans (by rw [W1_cst_1, W1_v9])
theorem W2_v1 : W2 m ρ c (Proc.devRef .tc main_v1) = srcIdx (m ((c : Thread nD τ).loc main_arg1)) := (ops01_v1 _).trans (W1_v1 m ρ c)
theorem W2_v3 : W2 m ρ c (Proc.devRef .tc main_v3) = dstIdx (m ((c : Thread nD τ).loc main_arg1)) := (ops01_v3 _).trans (W1_v3 m ρ c)
theorem W2_arg3 : W2 m ρ c (Proc.devRef .tc main_arg3) = m ((c : Thread nD τ).loc main_arg3) := (ops01_arg3 _).trans (W1_arg3 m ρ c)
theorem W2_arg4 : W2 m ρ c (Proc.devRef .tc main_arg4) = m ((c : Thread nD τ).loc main_arg4) := (ops01_arg4 _).trans (W1_arg4 m ρ c)
theorem W2_arg5 : W2 m ρ c (Proc.devRef .tc main_arg5) = m ((c : Thread nD τ).loc main_arg5) := (ops01_arg5 _).trans (W1_arg5 m ρ c)
theorem W2_arg6 : W2 m ρ c (Proc.devRef .tc main_arg6) = m ((c : Thread nD τ).loc main_arg6) := (ops01_arg6 _).trans (W1_arg6 m ρ c)
theorem W2_arg7 : W2 m ρ c (Proc.devRef .tc main_arg7) = m ((c : Thread nD τ).loc main_arg7) := (ops01_arg7 _).trans (W1_arg7 m ρ c)
theorem W2_arg8 : W2 m ρ c (Proc.devRef .tc main_arg8) = m ((c : Thread nD τ).loc main_arg8) := (ops01_arg8 _).trans (W1_arg8 m ρ c)
theorem W2_arg9 : W2 m ρ c (Proc.devRef .tc main_arg9) = m ((c : Thread nD τ).loc main_arg9) := (ops01_arg9 _).trans (W1_arg9 m ρ c)

-- at the first region's entry
theorem W3_v13 : W3 m ρ c (Proc.devRef .tc main_v13) = nrm (m ((c : Thread nD τ).loc main_arg1)) :=
  (ops02_v13 _).trans (by rw [W2_v10]; rfl)
theorem W3_v14 : W3 m ρ c (Proc.devRef .tc main_v14) = (truncf .bf16 (m ((c : Thread nD τ).loc main_arg4) : FVec Ideal S256x128 .f32) bitsLt_bf16_f32 : FVec Ideal S256x128 .bf16) :=
  (ops02_v14 _).trans (by rw [W2_arg4])
theorem W3_v15 : W3 m ρ c (Proc.devRef .tc main_v15) = shapeCast _ (m ((c : Thread nD τ).loc main_arg5)) shapeCasts_S128_S1x128 :=
  (ops02_v15 _).trans (by rw [W2_arg5])
theorem W3_v1 : W3 m ρ c (Proc.devRef .tc main_v1) = srcIdx (m ((c : Thread nD τ).loc main_arg1)) := (ops02_v1 _).trans (W2_v1 m ρ c)
theorem W3_v3 : W3 m ρ c (Proc.devRef .tc main_v3) = dstIdx (m ((c : Thread nD τ).loc main_arg1)) := (ops02_v3 _).trans (W2_v3 m ρ c)
theorem W3_arg3 : W3 m ρ c (Proc.devRef .tc main_arg3) = m ((c : Thread nD τ).loc main_arg3) := (ops02_arg3 _).trans (W2_arg3 m ρ c)
theorem W3_arg6 : W3 m ρ c (Proc.devRef .tc main_arg6) = m ((c : Thread nD τ).loc main_arg6) := (ops02_arg6 _).trans (W2_arg6 m ρ c)
theorem W3_arg7 : W3 m ρ c (Proc.devRef .tc main_arg7) = m ((c : Thread nD τ).loc main_arg7) := (ops02_arg7 _).trans (W2_arg7 m ρ c)
theorem W3_arg8 : W3 m ρ c (Proc.devRef .tc main_arg8) = m ((c : Thread nD τ).loc main_arg8) := (ops02_arg8 _).trans (W2_arg8 m ρ c)
theorem W3_arg9 : W3 m ρ c (Proc.devRef .tc main_arg9) = m ((c : Thread nD τ).loc main_arg9) := (ops02_arg9 _).trans (W2_arg9 m ρ c)

-- at the first region's exit
theorem W4_v16 : W4 m ρ c (Proc.devRef .tc main_v16) = feat1 (m ((c : Thread nD τ).loc main_arg1)) (m ((c : Thread nD τ).loc main_arg3)) (m ((c : Thread nD τ).loc main_arg4)) := by
  refine (W4_arr m ρ c 3).trans ((Rows0.arr (V3 m ρ) c).trans ?_)
  show Spec.scaleMatmul (φ := .bf16) (W3 m ρ c (Proc.devRef .tc main_arg3)) (W3 m ρ c (Proc.devRef .tc main_v13)) (W3 m ρ c (Proc.devRef .tc main_v14)) = _
  rw [W3_arg3, W3_v13, W3_v14]; rfl
theorem W4_v13 : W4 m ρ c (Proc.devRef .tc main_v13) = nrm (m ((c : Thread nD τ).loc main_arg1)) :=
  (W4_arr m ρ c 1).trans (((dat0 (V3 m ρ) c).arrAt_in 1 rfl _).trans ((A_eq0 (V3 m ρ) c 1).trans (W3_v13 m ρ c)))
theorem W4_v15 : W4 m ρ c (Proc.devRef .tc main_v15) = shapeCast _ (m ((c : Thread nD τ).loc main_arg5)) shapeCasts_S128_S1x128 :=
  (W4_of_ne m ρ c main_v15 (by decide)).trans (W3_v15 m ρ c)
theorem W4_v1 : W4 m ρ c (Proc.devRef .tc main_v1) = srcIdx (m ((c : Thread nD τ).loc main_arg1)) := (W4_of_ne m ρ c main_v1 (by decide)).trans (W3_v1 m ρ c)
theorem W4_v3 : W4 m ρ c (Proc.devRef .tc main_v3) = dstIdx (m ((c : Thread nD τ).loc main_arg1)) := (W4_of_ne m ρ c main_v3 (by decide)).trans (W3_v3 m ρ c)
theorem W4_arg6 : W4 m ρ c (Proc.devRef .tc main_arg6) = m ((c : Thread nD τ).loc main_arg6) := (W4_of_ne m ρ c main_arg6 (by decide)).trans (W3_arg6 m ρ c)
theorem W4_arg7 : W4 m ρ c (Proc.devRef .tc main_arg7) = m ((c : Thread nD τ).loc main_arg7) := (W4_of_ne m ρ c main_arg7 (by decide)).trans (W3_arg7 m ρ c)
theorem W4_arg8 : W4 m ρ c (Proc.devRef .tc main_arg8) = m ((c : Thread nD τ).loc main_arg8) := (W4_of_ne m ρ c main_arg8 (by decide)).trans (W3_arg8 m ρ c)
theorem W4_arg9 : W4 m ρ c (Proc.devRef .tc main_arg9) = m ((c : Thread nD τ).loc main_arg9) := (W4_of_ne m ρ c main_arg9 (by decide)).trans (W3_arg9 m ρ c)

-- at the second region's entry
theorem W5_v26 : W5 m ρ c (Proc.devRef .tc main_v26) = aggregate (feat1 (m ((c : Thread nD τ).loc main_arg1)) (m ((c : Thread nD τ).loc main_arg3)) (m ((c : Thread nD τ).loc main_arg4))) (srcIdx (m ((c : Thread nD τ).loc main_arg1))) (dstIdx (m ((c : Thread nD τ).loc main_arg1))) :=
  (ops1_v26 _).trans (by rw [W4_v16, W4_v1, W4_v3])
theorem W5_v13 : W5 m ρ c (Proc.devRef .tc main_v13) = nrm (m ((c : Thread nD τ).loc main_arg1)) := (ops1_v13 _).trans (W4_v13 m ρ c)
theorem W5_v15 : W5 m ρ c (Proc.devRef .tc main_v15) = shapeCast _ (m ((c : Thread nD τ).loc main_arg5)) shapeCasts_S128_S1x128 := (ops1_v15 _).trans (W4_v15 m ρ c)
theorem W5_v1 : W5 m ρ c (Proc.devRef .tc main_v1) = srcIdx (m ((c : Thread nD τ).loc main_arg1)) := (ops1_v1 _).trans (W4_v1 m ρ c)
theorem W5_v3 : W5 m ρ c (Proc.devRef .tc main_v3) = dstIdx (m ((c : Thread nD τ).loc main_arg1)) := (ops1_v3 _).trans (W4_v3 m ρ c)
theorem W5_arg6 : W5 m ρ c (Proc.devRef .tc main_arg6) = m ((c : Thread nD τ).loc main_arg6) := (ops1_arg6 _).trans (W4_arg6 m ρ c)
theorem W5_arg7 : W5 m ρ c (Proc.devRef .tc main_arg7) = m ((c : Thread nD τ).loc main_arg7) := (ops1_arg7 _).trans (W4_arg7 m ρ c)
theorem W5_arg8 : W5 m ρ c (Proc.devRef .tc main_arg8) = m ((c : Thread nD τ).loc main_arg8) := (ops1_arg8 _).trans (W4_arg8 m ρ c)
theorem W5_arg9 : W5 m ρ c (Proc.devRef .tc main_arg9) = m ((c : Thread nD τ).loc main_arg9) := (ops1_arg9 _).trans (W4_arg9 m ρ c)

-- at the second region's exit
theorem W6_v27 : W6 m ρ c (Proc.devRef .tc main_v27) = hid1 (m ((c : Thread nD τ).loc main_arg1)) (m ((c : Thread nD τ).loc main_arg3)) (m ((c : Thread nD τ).loc main_arg4)) (m ((c : Thread nD τ).loc main_arg5)) := by
  refine (W6_arr m ρ c 3).trans ((Rows1.arr (V5 m ρ) c).trans ?_)
  show Spec.finalize (W5 m ρ c (Proc.devRef .tc main_v26)) (W5 m ρ c (Proc.devRef .tc main_v13)) (W5 m ρ c (Proc.devRef .tc main_v15)) = _
  rw [W5_v26, W5_v13, W5_v15]; rfl
theorem W6_v13 : W6 m ρ c (Proc.devRef .tc main_v13) = nrm (m ((c : Thread nD τ).loc main_arg1)) :=
  (W6_arr m ρ c 1).trans (((dat1 (V5 m ρ) c).arrAt_in 1 rfl _).trans ((A_eq1 (V5 m ρ) c 1).trans (W5_v13 m ρ c)))
theorem W6_v1 : W6 m ρ c (Proc.devRef .tc main_v1) = srcIdx (m ((c : Thread nD τ).loc main_arg1)) := (W6_of_ne m ρ c main_v1 (by decide)).trans (W5_v1 m ρ c)
theorem W6_v3 : W6 m ρ c (Proc.devRef .tc main_v3) = dstIdx (m ((c : Thread nD τ).loc main_arg1)) := (W6_of_ne m ρ c main_v3 (by decide)).trans (W5_v3 m ρ c)
theorem W6_arg6 : W6 m ρ c (Proc.devRef .tc main_arg6) = m ((c : Thread nD τ).loc main_arg6) := (W6_of_ne m ρ c main_arg6 (by decide)).trans (W5_arg6 m ρ c)
theorem W6_arg7 : W6 m ρ c (Proc.devRef .tc main_arg7) = m ((c : Thread nD τ).loc main_arg7) := (W6_of_ne m ρ c main_arg7 (by decide)).trans (W5_arg7 m ρ c)
theorem W6_arg8 : W6 m ρ c (Proc.devRef .tc main_arg8) = m ((c : Thread nD τ).loc main_arg8) := (W6_of_ne m ρ c main_arg8 (by decide)).trans (W5_arg8 m ρ c)
theorem W6_arg9 : W6 m ρ c (Proc.devRef .tc main_arg9) = m ((c : Thread nD τ).loc main_arg9) := (W6_of_ne m ρ c main_arg9 (by decide)).trans (W5_arg9 m ρ c)

-- at the third region's entry
theorem W7_v27 : W7 m ρ c (Proc.devRef .tc main_v27) = hid1 (m ((c : Thread nD τ).loc main_arg1)) (m ((c : Thread nD τ).loc main_arg3)) (m ((c : Thread nD τ).loc main_arg4)) (m ((c : Thread nD τ).loc main_arg5)) := (ops2_v27 _).trans (W6_v27 m ρ c)
theorem W7_v13 : W7 m ρ c (Proc.devRef .tc main_v13) = nrm (m ((c : Thread nD τ).loc main_arg1)) := (ops2_v13 _).trans (W6_v13 m ρ c)
theorem W7_v28 : W7 m ρ c (Proc.devRef .tc main_v28) = (truncf .bf16 (m ((c : Thread nD τ).loc main_arg6) : FVec Ideal S128x128 .f32) bitsLt_bf16_f32 : FVec Ideal S128x128 .bf16) := (ops2_v28 _).trans (by rw [W6_arg6])
theorem W7_v29 : W7 m ρ c (Proc.devRef .tc main_v29) = shapeCast _ (m ((c : Thread nD τ).loc main_arg7)) shapeCasts_S128_S1x128 := (ops2_v29 _).trans (by rw [W6_arg7])
theorem W7_v1 : W7 m ρ c (Proc.devRef .tc main_v1) = srcIdx (m ((c : Thread nD τ).loc main_arg1)) := (ops2_v1 _).trans (W6_v1 m ρ c)
theorem W7_v3 : W7 m ρ c (Proc.devRef .tc main_v3) = dstIdx (m ((c : Thread nD τ).loc main_arg1)) := (ops2_v3 _).trans (W6_v3 m ρ c)
theorem W7_arg8 : W7 m ρ c (Proc.devRef .tc main_arg8) = m ((c : Thread nD τ).loc main_arg8) := (ops2_arg8 _).trans (W6_arg8 m ρ c)
theorem W7_arg9 : W7 m ρ c (Proc.devRef .tc main_arg9) = m ((c : Thread nD τ).loc main_arg9) := (ops2_arg9 _).trans (W6_arg9 m ρ c)

-- at the third region's exit
theorem W8_v30 : W8 m ρ c (Proc.devRef .tc main_v30) = feat2 (m ((c : Thread nD τ).loc main_arg1)) (m ((c : Thread nD τ).loc main_arg3)) (m ((c : Thread nD τ).loc main_arg4)) (m ((c : Thread nD τ).loc main_arg5)) := by
  refine (W8_arr m ρ c 2).trans ((Rows2.arr (V7 m ρ) c).trans ?_)
  show Spec.scale (W7 m ρ c (Proc.devRef .tc main_v27)) (W7 m ρ c (Proc.devRef .tc main_v13)) = _
  rw [W7_v27, W7_v13]; rfl
theorem W8_v13 : W8 m ρ c (Proc.devRef .tc main_v13) = nrm (m ((c : Thread nD τ).loc main_arg1)) :=
  (W8_arr m ρ c 1).trans (((dat2 (V7 m ρ) c).arrAt_in 1 rfl _).trans ((A_eq2 (V7 m ρ) c 1).trans (W7_v13 m ρ c)))
theorem W8_v28 : W8 m ρ c (Proc.devRef .tc main_v28) = (truncf .bf16 (m ((c : Thread nD τ).loc main_arg6) : FVec Ideal S128x128 .f32) bitsLt_bf16_f32 : FVec Ideal S128x128 .bf16) := (W8_of_ne m ρ c main_v28 (by decide)).trans (W7_v28 m ρ c)
theorem W8_v29 : W8 m ρ c (Proc.devRef .tc main_v29) = shapeCast _ (m ((c : Thread nD τ).loc main_arg7)) shapeCasts_S128_S1x128 := (W8_of_ne m ρ c main_v29 (by decide)).trans (W7_v29 m ρ c)
theorem W8_v1 : W8 m ρ c (Proc.devRef .tc main_v1) = srcIdx (m ((c : Thread nD τ).loc main_arg1)) := (W8_of_ne m ρ c main_v1 (by decide)).trans (W7_v1 m ρ c)
theorem W8_v3 : W8 m ρ c (Proc.devRef .tc main_v3) = dstIdx (m ((c : Thread nD τ).loc main_arg1)) := (W8_of_ne m ρ c main_v3 (by decide)).trans (W7_v3 m ρ c)
theorem W8_arg8 : W8 m ρ c (Proc.devRef .tc main_arg8) = m ((c : Thread nD τ).loc main_arg8) := (W8_of_ne m ρ c main_arg8 (by decide)).trans (W7_arg8 m ρ c)
theorem W8_arg9 : W8 m ρ c (Proc.devRef .tc main_arg9) = m ((c : Thread nD τ).loc main_arg9) := (W8_of_ne m ρ c main_arg9 (by decide)).trans (W7_arg9 m ρ c)

-- at the fourth region's entry
theorem W9_v40 : W9 m ρ c (Proc.devRef .tc main_v40) = aggregate (feat2 (m ((c : Thread nD τ).loc main_arg1)) (m ((c : Thread nD τ).loc main_arg3)) (m ((c : Thread nD τ).loc main_arg4)) (m ((c : Thread nD τ).loc main_arg5))) (srcIdx (m ((c : Thread nD τ).loc main_arg1))) (dstIdx (m ((c : Thread nD τ).loc main_arg1))) :=
  (ops3_v40 _).trans (by rw [W8_v30, W8_v1, W8_v3])
theorem W9_v13 : W9 m ρ c (Proc.devRef .tc main_v13) = nrm (m ((c : Thread nD τ).loc main_arg1)) := (ops3_v13 _).trans (W8_v13 m ρ c)
theorem W9_v28 : W9 m ρ c (Proc.devRef .tc main_v28) = (truncf .bf16 (m ((c : Thread nD τ).loc main_arg6) : FVec Ideal S128x128 .f32) bitsLt_bf16_f32 : FVec Ideal S128x128 .bf16) := (ops3_v28 _).trans (W8_v28 m ρ c)
theorem W9_v29 : W9 m ρ c (Proc.devRef .tc main_v29) = shapeCast _ (m ((c : Thread nD τ).loc main_arg7)) shapeCasts_S128_S1x128 := (ops3_v29 _).trans (W8_v29 m ρ c)
theorem W9_arg8 : W9 m ρ c (Proc.devRef .tc main_arg8) = m ((c : Thread nD τ).loc main_arg8) := (ops3_arg8 _).trans (W8_arg8 m ρ c)
theorem W9_arg9 : W9 m ρ c (Proc.devRef .tc main_arg9) = m ((c : Thread nD τ).loc main_arg9) := (ops3_arg9 _).trans (W8_arg9 m ρ c)

-- at the fourth region's exit, which is the fifth region's entry
theorem W10_v41 : W10 m ρ c (Proc.devRef .tc main_v41) = prod2 (m ((c : Thread nD τ).loc main_arg1)) (m ((c : Thread nD τ).loc main_arg3)) (m ((c : Thread nD τ).loc main_arg4)) (m ((c : Thread nD τ).loc main_arg5)) (m ((c : Thread nD τ).loc main_arg6)) := by
  refine (W10_arr m ρ c 2).trans ((Rows3.arr (V9 m ρ) c).trans ?_)
  show Spec.matmul (φ := .bf16) (W9 m ρ c (Proc.devRef .tc main_v40)) (W9 m ρ c (Proc.devRef .tc main_v28)) = _
  rw [W9_v40, W9_v28]; rfl
theorem W10_v13 : W10 m ρ c (Proc.devRef .tc main_v13) = nrm (m ((c : Thread nD τ).loc main_arg1)) := (W10_of_ne m ρ c main_v13 (by decide)).trans (W9_v13 m ρ c)
theorem W10_v29 : W10 m ρ c (Proc.devRef .tc main_v29) = shapeCast _ (m ((c : Thread nD τ).loc main_arg7)) shapeCasts_S128_S1x128 := (W10_of_ne m ρ c main_v29 (by decide)).trans (W9_v29 m ρ c)
theorem W10_arg8 : W10 m ρ c (Proc.devRef .tc main_arg8) = m ((c : Thread nD τ).loc main_arg8) := (W10_of_ne m ρ c main_arg8 (by decide)).trans (W9_arg8 m ρ c)
theorem W10_arg9 : W10 m ρ c (Proc.devRef .tc main_arg9) = m ((c : Thread nD τ).loc main_arg9) := (W10_of_ne m ρ c main_arg9 (by decide)).trans (W9_arg9 m ρ c)

-- at the fifth region's exit
theorem W11_v42 : W11 m ρ c (Proc.devRef .tc main_v42) = hid2 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 3).trans ((Rows4.arr (V10 m ρ) c).trans ?_)
  show Spec.finalize (W10 m ρ c (Proc.devRef .tc main_v41)) (W10 m ρ c (Proc.devRef .tc main_v13)) (W10 m ρ c (Proc.devRef .tc main_v29)) = _
  rw [W10_v41, W10_v13, W10_v29]; rfl
theorem W11_arg8 : W11 m ρ c (Proc.devRef .tc main_arg8) = m ((c : Thread nD τ).loc main_arg8) := (W11_of_ne m ρ c main_arg8 (by decide)).trans (W10_arg8 m ρ c)
theorem W11_arg9 : W11 m ρ c (Proc.devRef .tc main_arg9) = m ((c : Thread nD τ).loc main_arg9) := (W11_of_ne m ρ c main_arg9 (by decide)).trans (W10_arg9 m ρ c)

-- at the last region's entry
theorem W12_v42 : W12 m ρ c (Proc.devRef .tc main_v42) = hid2 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (ops5_v42 _).trans (W11_v42 m ρ c)
theorem W12_v44 : W12 m ρ c (Proc.devRef .tc main_v44)
    = (truncf .bf16 (transpose S128x16 [1, 0] (m ((c : Thread nD τ).loc main_arg8) : FVec Ideal S16x128 .f32) transposes_S16x128_S128x16_1_0) bitsLt_bf16_f32 : FVec Ideal S128x16 .bf16) :=
  (ops5_v44 _).trans (by rw [W11_arg8])
theorem W12_v45 : W12 m ρ c (Proc.devRef .tc main_v45) = shapeCast _ (m ((c : Thread nD τ).loc main_arg9)) shapeCasts_S16_S1x16 := (ops5_v45 _).trans (by rw [W11_arg9])

/-- THE RESULT after the last region: the program's result buffer holds `out` of the arguments. -/
theorem W13_v46 : W13 m ρ c (Proc.devRef .tc main_v46)
    = out (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W13_arr m ρ c 3).trans ((Rows5.arr (V12 m ρ) c).trans ?_)
  show Spec.finalLinear (φ := .bf16) (W12 m ρ c (Proc.devRef .tc main_v42)) (W12 m ρ c (Proc.devRef .tc main_v44)) (W12 m ρ c (Proc.devRef .tc main_v45)) = _
  rw [W12_v42, W12_v44, W12_v45]; rfl

/-- The kernel program's run, read: every weakly fair execution ends with the result buffer at `out` of the
    arguments' launch contents and the arguments as launched. -/
theorem run : θ_run defs (onTc (τ := τ) (main (F := Ideal))) ⟨m, fun _ => 0, ρ⟩ (fun r => ∀ c : Dev nD,
      r.2.mem ((c.tc : Thread nD τ).loc main_v46)
        = out (m ((c.tc : Thread nD τ).loc main_arg1)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W13_v46 m ρ c), (h c).2⟩) (ResultRun.run_result (F := Ideal) m ρ)

end Cert.KernelIdeal.Value

end
-- ==== Proof.HostAgree.lean ====
/-
  The whole-array host terms of the kernel program are the stages of the reference program.

  Both programs split the edge list into its source and destination rows, count each node's out-degree by adding
  ones at the edges' sources, clamp it below at one and raise it to the power -1/2, and gather rows at the edges'
  sources (a negative index counting from the end) to add them up at the edges' destinations.  The two programs
  write these operations over two copies of the same shapes and the same scatter and gather dimension records, so
  term by term the two sides are the same operation on the same operands.  What is left is layout: the kernel
  program carries the normaliser as one column and a bias as one row, obtained by reshaping a vector, and a vector
  reshaped to one column (row) is `Spec.col` (`Spec.row`) of it; and the cast of the last weights to the narrower
  format is the identity on the extended reals.
-/
import proofs.«135295_j45483703664785_1_alg».proof.Proof.KernelTerm
import proofs.«135295_j45483703664785_1_alg».proof.Proof.Gen.ReferenceIdeal.Read
import proofs.«135295_j45483703664785_1_alg».proof.Proof.Spec
import Idealize.ShloMosaic.Lib.ValueLayout
import Idealize.ShloMosaic.Lib.Pipeline.Value

noncomputable section

namespace Cert.Bridge

open Cert.ReferenceIdeal Cert.ReferenceIdeal.Read Idealize.ShloMosaic Idealize.ShloMosaic.ValueIdx

/-! ## A vector reshaped to one column or one row -/

/-- A length-R vector reshaped to R × 1 holds, at (p, 0), the vector at p. -/
theorem shapeCast_col {R : ℕ} {φ : FTy} (v : FVec Ideal ⟨1, ![R]⟩ φ) (h : (⟨1, ![R]⟩ : Shape).ShapeCasts ⟨2, ![R, 1]⟩) :
    shapeCast ⟨2, ![R, 1]⟩ v h = Spec.col v := by
  funext i
  obtain ⟨p, z, rfl⟩ : ∃ (p : Fin R) (z : Fin 1), i = ix2 p z := ⟨i 0, i 1, eq_ix2 i⟩
  refine (shapeCast_apply v h (ix2 p z) (ix1 p) ?_).trans (Spec.col_apply v p z).symm
  rw [Shape.rowMajor_val_one, Shape.rowMajor_val_two]
  show p.val = p.val * 1 + z.val
  omega

/-- A length-C vector reshaped to 1 × C holds, at (0, q), the vector at q. -/
theorem shapeCast_row {C : ℕ} {φ : FTy} (v : FVec Ideal ⟨1, ![C]⟩ φ) (h : (⟨1, ![C]⟩ : Shape).ShapeCasts ⟨2, ![1, C]⟩) :
    shapeCast ⟨2, ![1, C]⟩ v h = Spec.row v := by
  funext i
  obtain ⟨u, q, rfl⟩ : ∃ (u : Fin 1) (q : Fin C), i = ix2 u q := ⟨i 0, i 1, eq_ix2 i⟩
  exact (shapeCast_a_1a_apply v h u q).trans (Spec.row_apply v u q).symm

variable (x1 : (⟨S2x1600000, .i32⟩ : BufTy).Contents (Elt Ideal)) (x3 : (⟨S100000x256, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S16x128, .f32⟩ : BufTy).Contents (Elt Ideal)) (x9 : (⟨S16, .f32⟩ : BufTy).Contents (Elt Ideal))

/-! ## The edge list's rows and the wrapped source index

  The reference splits the edge list twice, once before each aggregation; both copies are the same terms. -/

theorem src_eq : Cert.KernelIdeal.HostSide.srcIdx x1 = val_main_v1 (F := Ideal) x1 := rfl
theorem dst_eq : Cert.KernelIdeal.HostSide.dstIdx x1 = val_main_v3 (F := Ideal) x1 := rfl
theorem src_eq' : Cert.KernelIdeal.HostSide.srcIdx x1 = val_main_v32 (F := Ideal) x1 := rfl
theorem dst_eq' : Cert.KernelIdeal.HostSide.dstIdx x1 = val_main_v34 (F := Ideal) x1 := rfl

/-- A negative source index counts from the end: select (s < 0) (s + 100000) s, laid out as one column. -/
theorem wrap_eq : Cert.KernelIdeal.HostSide.wrapIdx (val_main_v1 (F := Ideal) x1) = val_main_v20 (F := Ideal) x1 := by
  unfold Cert.KernelIdeal.HostSide.wrapIdx val_main_v20 val_main_v19 val_main_v18 val_main_v17 val_main_v16 val_main_v15 val_main_c val_main_c_3
  rfl
theorem wrap_eq' : Cert.KernelIdeal.HostSide.wrapIdx (val_main_v32 (F := Ideal) x1) = val_main_v50 (F := Ideal) x1 := by
  unfold Cert.KernelIdeal.HostSide.wrapIdx val_main_v50 val_main_v49 val_main_v48 val_main_v47 val_main_v46 val_main_v45 val_main_c_9 val_main_c_10
  rfl

/-! ## The dimension records, one copy per program -/

theorem scatterRows_eq : Cert.KernelIdeal.scatter_S100000x128_S1600000x1_S1600000x128_1_0_0_1 = scatter_S100000x128_S1600000x1_S1600000x128_1_0_0_1 := rfl
theorem gatherRows_eq : Cert.KernelIdeal.gather_S100000x128_S1600000x1_S1600000x128_1_0_n_n_0_1_1128 = gather_S100000x128_S1600000x1_S1600000x128_1_0_n_n_0_1_1128 := rfl
theorem scatterOnes_eq : Cert.KernelIdeal.scatter_S100000_S1600000x1_S1600000_n_0_0_1 = scatter_S100000_S1600000x1_S1600000_n_0_0_1 := rfl

/-! ## The normaliser -/

/-- The kernel program's normaliser column is the reference's normaliser vector reshaped to one column:
    the degree (ones added up at the sources), clamped below at one, to the power -1/2. -/
theorem nrm_host : Cert.KernelIdeal.Value.nrm x1
    = shapeCast Cert.KernelIdeal.S100000x1 (val_main_v10 (F := Ideal) x1) Cert.KernelIdeal.Gen.shapeCasts_S100000_S100000x1 := by
  unfold Cert.KernelIdeal.Value.nrm Cert.KernelIdeal.HostSide.normCol Cert.KernelIdeal.HostSide.clampLow Cert.KernelIdeal.HostSide.degree
  rw [src_eq]
  unfold val_main_v10 val_main_v9 val_main_v8 val_main_v7 val_main_v6 val_main_v5 val_main_v4 val_main_call0_v1 val_main_call0_v0
    val_main_cst val_main_cst_0 val_main_cst_1 val_main_cst_2
  rfl

theorem nrm_eq : Cert.KernelIdeal.Value.nrm x1 = Spec.col (φ := .f32) (val_main_v10 (F := Ideal) x1) :=
  (nrm_host x1).trans (shapeCast_col (val_main_v10 (F := Ideal) x1) _)

/-! ## The two aggregations -/

/-- Rows gathered at the wrapped sources and added up at the destinations, from the zero array: the first one. -/
theorem agg1_eq (a : (⟨S100000x128, .f32⟩ : BufTy).Contents (Elt Ideal)) (ha : a = val_main_v14 (F := Ideal) x1 x3 x4) :
    Cert.KernelIdeal.HostSide.aggregate a (Cert.KernelIdeal.HostSide.srcIdx x1) (Cert.KernelIdeal.HostSide.dstIdx x1) = val_main_v24 (F := Ideal) x1 x3 x4 := by
  subst ha
  unfold Cert.KernelIdeal.HostSide.aggregate
  rw [src_eq, dst_eq, wrap_eq]
  unfold val_main_v24 val_main_v23 val_main_v22 val_main_v21 val_main_cst_4
  rfl

/-- The second one, over the reference's second copy of the edge rows. -/
theorem agg2_eq (a : (⟨S100000x128, .f32⟩ : BufTy).Contents (Elt Ideal)) (ha : a = val_main_v44 (F := Ideal) x1 x3 x4 x5) :
    Cert.KernelIdeal.HostSide.aggregate a (Cert.KernelIdeal.HostSide.srcIdx x1) (Cert.KernelIdeal.HostSide.dstIdx x1) = val_main_v54 (F := Ideal) x1 x3 x4 x5 := by
  subst ha
  unfold Cert.KernelIdeal.HostSide.aggregate
  rw [src_eq', dst_eq', wrap_eq']
  unfold val_main_v54 val_main_v53 val_main_v52 val_main_v51 val_main_cst_11
  rfl

/-! ## The biases as rows, the last weights -/

theorem bias128_row (b : (⟨S128, .f32⟩ : BufTy).Contents (Elt Ideal)) : shapeCast Cert.KernelIdeal.S1x128 b Cert.KernelIdeal.Gen.shapeCasts_S128_S1x128 = Spec.row (φ := .f32) b :=
  shapeCast_row b _
theorem bias16_row (b : (⟨S16, .f32⟩ : BufTy).Contents (Elt Ideal)) : shapeCast Cert.KernelIdeal.S1x16 b Cert.KernelIdeal.Gen.shapeCasts_S16_S1x16 = Spec.row (φ := .f32) b :=
  shapeCast_row b _

/-- The last weights transposed and cast to the narrower format: the cast is the identity, the transpose the reference's. -/
theorem w3t_apply (i : S128x16.Idx) : (truncf (F := Ideal) (φ := .f32) .bf16 (transpose Cert.KernelIdeal.S128x16 [1, 0] x8 Cert.KernelIdeal.Gen.transposes_S16x128_S128x16_1_0) Cert.KernelIdeal.Gen.bitsLt_bf16_f32) i = val_main_v62 (F := Ideal) x8 i := by
  unfold val_main_v62
  rfl

end Cert.Bridge

end
-- ==== Proof.RefRows.lean ====
/-
  The reference program's stages, read as the node-row arithmetic of `Spec`.

  The reference carries a degree normaliser as a length-100000 vector, lays it out as one column and
  spreads that column across every column of a node-row array; a bias vector is laid out as one row and
  spread down every row.  Each theorem below reads one stage at an entry (p, q), follows those layout
  steps back to the coordinate they read, and finds the entry of the corresponding whole-array row
  function of `Spec` applied to the earlier stage.  The two edge aggregations and the normaliser itself
  stay opaque: they appear only as named earlier stages.
-/
import proofs.«135295_j45483703664785_1_alg».proof.Proof.Gen.ReferenceIdeal.Read
import proofs.«135295_j45483703664785_1_alg».proof.Proof.Spec

noncomputable section

open scoped BigOperators

namespace Cert.ReferenceIdeal.Rows

open Cert.ReferenceIdeal Cert.ReferenceIdeal.Read Idealize.ShloMosaic Idealize.ShloMosaic.ValueIdx

variable (x1 : (⟨S2x1600000, .i32⟩ : BufTy).Contents (Elt Ideal)) (x3 : (⟨S100000x256, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S16x128, .f32⟩ : BufTy).Contents (Elt Ideal)) (x9 : (⟨S16, .f32⟩ : BufTy).Contents (Elt Ideal))

/-! ## Where the layout and contraction steps read -/

/-- The column layout of the first normaliser, spread across 256 columns, reads the vector at the row. -/
private theorem spread256_row (p : Fin 100000) (k : Fin 256) : idx_main_v11 (idx_main_v12 (ix2 p k)) = ix1 p :=
  funext fun a => Fin.ext (by match a with | ⟨0, _⟩ => rfl)

/-- The same column spread across 128 columns reads the vector at the row. -/
private theorem spread128_row (p : Fin 100000) (q : Fin 128) : idx_main_v11 (idx_main_v25 (ix2 p q)) = ix1 p :=
  funext fun a => Fin.ext (by match a with | ⟨0, _⟩ => rfl)

/-- The second normaliser's column, spread across 128 columns for the scaling of layer 2 … -/
private theorem spread128_row2 (p : Fin 100000) (q : Fin 128) : idx_main_v42 (idx_main_v43 (ix2 p q)) = ix1 p :=
  funext fun a => Fin.ext (by match a with | ⟨0, _⟩ => rfl)

/-- … and again for the finalization of layer 2. -/
private theorem spread128_row2' (p : Fin 100000) (q : Fin 128) : idx_main_v42 (idx_main_v56 (ix2 p q)) = ix1 p :=
  funext fun a => Fin.ext (by match a with | ⟨0, _⟩ => rfl)

/-- A bias laid out as one row and spread down the rows reads the vector at the column: layer 1's … -/
private theorem bias1_col (p : Fin 100000) (q : Fin 128) : idx_main_v27 (idx_main_v28 (ix2 p q)) = ix1 q :=
  funext fun a => Fin.ext (by match a with | ⟨0, _⟩ => rfl)

/-- … layer 2's … -/
private theorem bias2_col (p : Fin 100000) (q : Fin 128) : idx_main_v58 (idx_main_v59 (ix2 p q)) = ix1 q :=
  funext fun a => Fin.ext (by match a with | ⟨0, _⟩ => rfl)

/-- … and the last linear step's. -/
private theorem bias3_col (p : Fin 100000) (q : Fin 16) : idx_main_v64 (idx_main_v65 (ix2 p q)) = ix1 q :=
  funext fun a => Fin.ext (by match a with | ⟨0, _⟩ => rfl)

/-- The contraction of layer 1 reads the left factor at (p, k) … -/
private theorem contr1_left (p : Fin 100000) (q : Fin 128) (k : Fin 256) : lidx_main_v14 (ix2 p q) k = ix2 p k :=
  funext fun a => Fin.ext (by match a with | ⟨0, _⟩ => rfl | ⟨1, _⟩ => rfl)

/-- … and the weights at (k, q). -/
private theorem contr1_right (p : Fin 100000) (q : Fin 128) (k : Fin 256) : ridx_main_v14 (ix2 p q) k = ix2 k q :=
  funext fun a => Fin.ext (by match a with | ⟨0, _⟩ => rfl | ⟨1, _⟩ => rfl)

/-- Layer 2's contraction likewise … -/
private theorem contr2_left (p : Fin 100000) (q : Fin 128) (k : Fin 128) : lidx_main_v55 (ix2 p q) k = ix2 p k :=
  funext fun a => Fin.ext (by match a with | ⟨0, _⟩ => rfl | ⟨1, _⟩ => rfl)

private theorem contr2_right (p : Fin 100000) (q : Fin 128) (k : Fin 128) : ridx_main_v55 (ix2 p q) k = ix2 k q :=
  funext fun a => Fin.ext (by match a with | ⟨0, _⟩ => rfl | ⟨1, _⟩ => rfl)

/-- … and the last one, into 16 columns. -/
private theorem contr3_left (p : Fin 100000) (q : Fin 16) (k : Fin 128) : lidx_main_v63 (ix2 p q) k = ix2 p k :=
  funext fun a => Fin.ext (by match a with | ⟨0, _⟩ => rfl | ⟨1, _⟩ => rfl)

private theorem contr3_right (p : Fin 100000) (q : Fin 16) (k : Fin 128) : ridx_main_v63 (ix2 p q) k = ix2 k q :=
  funext fun a => Fin.ext (by match a with | ⟨0, _⟩ => rfl | ⟨1, _⟩ => rfl)

/-! ## The stages as row functions -/

/-- Layer 1's product: entry (p, q) is the sum over k of (x3 (p, k) · n p) · x4 (k, q). -/
theorem layer1_product : val_main_v14 (F := Ideal) x1 x3 x4 = Spec.scaleMatmul (φ := .f32) x3 (Spec.col (val_main_v10 (F := Ideal) x1)) x4 := by
  funext i
  obtain ⟨p, q, rfl⟩ : ∃ (p : Fin 100000) (q : Fin 128), i = ix2 p q := ⟨i 0, i 1, eq_ix2 i⟩
  rw [val_main_v14_apply]
  unfold Spec.scaleMatmul Spec.scaleMatmulAt
  refine Finset.sum_congr rfl fun k _ => ?_
  rw [contr1_left, contr1_right, val_main_v13_apply, val_main_v12_apply, val_main_v11_apply, spread256_row]
  rfl

/-- Layer 1's output: the aggregated entry (p, q) times n p, plus the bias at q, clamped below at the zero word's value. -/
theorem layer1_out : val_main_v30 (F := Ideal) x1 x3 x4 x5 = Spec.finalize (val_main_v24 (F := Ideal) x1 x3 x4) (Spec.col (val_main_v10 (F := Ideal) x1)) (Spec.row x5) := by
  funext i
  obtain ⟨p, q, rfl⟩ : ∃ (p : Fin 100000) (q : Fin 128), i = ix2 p q := ⟨i 0, i 1, eq_ix2 i⟩
  rw [val_main_v30_apply, val_main_v29_apply, val_main_v26_apply, val_main_v25_apply, val_main_v11_apply, spread128_row,
    val_main_v28_apply, val_main_v27_apply, bias1_col, val_main_call1_v0_apply, val_main_call1_cst_apply]
  rfl

/-- Layer 2 begins by scaling layer 1's output by the second normaliser, row by row. -/
theorem layer2_scaled : val_main_v44 (F := Ideal) x1 x3 x4 x5 = Spec.scale (val_main_v30 (F := Ideal) x1 x3 x4 x5) (Spec.col (val_main_v41 (F := Ideal) x1)) := by
  funext i
  obtain ⟨p, q, rfl⟩ : ∃ (p : Fin 100000) (q : Fin 128), i = ix2 p q := ⟨i 0, i 1, eq_ix2 i⟩
  rw [val_main_v44_apply, val_main_v43_apply, val_main_v42_apply, spread128_row2]
  rfl

/-- Layer 2's product: the aggregated rows times the weights x6. -/
theorem layer2_product : val_main_v55 (F := Ideal) x1 x3 x4 x5 x6 = Spec.matmul (φ := .f32) (val_main_v54 (F := Ideal) x1 x3 x4 x5) x6 := by
  funext i
  obtain ⟨p, q, rfl⟩ : ∃ (p : Fin 100000) (q : Fin 128), i = ix2 p q := ⟨i 0, i 1, eq_ix2 i⟩
  rw [val_main_v55_apply]
  unfold Spec.matmul Spec.matmulAt
  refine Finset.sum_congr rfl fun k _ => ?_
  rw [contr2_left, contr2_right]

/-- Layer 2's output: the product's entry (p, q) times the second normaliser at p, plus the bias at q, clamped. -/
theorem layer2_out : val_main_v61 (F := Ideal) x1 x3 x4 x5 x6 x7 = Spec.finalize (val_main_v55 (F := Ideal) x1 x3 x4 x5 x6) (Spec.col (val_main_v41 (F := Ideal) x1)) (Spec.row x7) := by
  funext i
  obtain ⟨p, q, rfl⟩ : ∃ (p : Fin 100000) (q : Fin 128), i = ix2 p q := ⟨i 0, i 1, eq_ix2 i⟩
  rw [val_main_v61_apply, val_main_v60_apply, val_main_v57_apply, val_main_v56_apply, val_main_v42_apply, spread128_row2',
    val_main_v59_apply, val_main_v58_apply, bias2_col, val_main_call3_v0_apply, val_main_call3_cst_apply]
  rfl

/-- The last step: layer 2's rows times the transposed weights, plus the bias at the column. -/
theorem final_out : val_main_v66 (F := Ideal) x1 x3 x4 x5 x6 x7 x8 x9 = Spec.finalLinear (φ := .f32) (val_main_v61 (F := Ideal) x1 x3 x4 x5 x6 x7) (val_main_v62 (F := Ideal) x8) (Spec.row x9) := by
  funext i
  obtain ⟨p, q, rfl⟩ : ∃ (p : Fin 100000) (q : Fin 16), i = ix2 p q := ⟨i 0, i 1, eq_ix2 i⟩
  rw [val_main_v66_apply, val_main_v65_apply, val_main_v64_apply, bias3_col, val_main_v63_apply]
  unfold Spec.finalLinear Spec.finalLinearAt Spec.matmulAt
  simp only [contr3_left, contr3_right]
  rfl

/-- The second normaliser is the first: the same operations of the edge list under other stage names. -/
theorem norm_again : val_main_v41 (F := Ideal) x1 = val_main_v10 (F := Ideal) x1 := by
  unfold val_main_v41 val_main_v39 val_main_v38 val_main_v37 val_main_v32 val_main_v31 val_main_v35 val_main_cst_5
    val_main_v36 val_main_cst_6 val_main_call2_v1 val_main_call2_v0 val_main_cst_7 val_main_v40 val_main_cst_8
  unfold val_main_v10 val_main_v8 val_main_v7 val_main_v6 val_main_v1 val_main_v0 val_main_v4 val_main_cst
    val_main_v5 val_main_cst_0 val_main_call0_v1 val_main_call0_v0 val_main_cst_1 val_main_v9 val_main_cst_2
  rfl

end Cert.ReferenceIdeal.Rows

end
-- ==== Proof.Bridge.lean ====
/-
  The bridge between the two programs' values.

  The kernel program's result is a tower of the row functions of `Spec` with the edge aggregation between
  them; the reference program's stages are the same tower by the lemmas of `Rows`.  The two towers are
  identified layer by layer, innermost first.  Three things differ in spelling only: the kernel side casts
  each weight array to the narrower float format, which on the extended reals changes no entry; it lays a
  bias out as a row by a change of shape where the reference spreads it; and it computes the normaliser
  column once where the reference computes the same vector twice.  The aggregation, the normaliser and the
  row layouts agree by the host-side lemmas imported here.
-/
import proofs.«135295_j45483703664785_1_alg».proof.Proof.HostAgree
import proofs.«135295_j45483703664785_1_alg».proof.Proof.RefRows
import proofs.«135295_j45483703664785_1_alg».proof.Proof.KernelTerm

noncomputable section

open scoped BigOperators

namespace Cert.Bridge

open Cert.ReferenceIdeal Cert.ReferenceIdeal.Read Cert.ReferenceIdeal.Rows Idealize.ShloMosaic Idealize.ShloMosaic.ValueIdx

variable (x1 : (⟨S2x1600000, .i32⟩ : BufTy).Contents (Elt Ideal)) (x3 : (⟨S100000x256, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S16x128, .f32⟩ : BufTy).Contents (Elt Ideal)) (x9 : (⟨S16, .f32⟩ : BufTy).Contents (Elt Ideal))

/-- Layer 1 before aggregation: the same scaled product; the cast of the weights changes no entry. -/
theorem feat1_eq : Cert.KernelIdeal.Value.feat1 x1 x3 x4 = val_main_v14 (F := Ideal) x1 x3 x4 := by
  unfold Cert.KernelIdeal.Value.feat1
  rw [nrm_eq, layer1_product]
  rfl

/-- Layer 1's output: aggregate the equal products, then the same scaling, bias row and clamp. -/
theorem hid1_eq : Cert.KernelIdeal.Value.hid1 x1 x3 x4 x5 = val_main_v30 (F := Ideal) x1 x3 x4 x5 := by
  unfold Cert.KernelIdeal.Value.hid1
  rw [agg1_eq x1 x3 x4 _ (feat1_eq x1 x3 x4), nrm_eq, bias128_row, layer1_out]

/-- Layer 2 before aggregation: layer 1's output scaled by the normaliser, which the reference recomputes. -/
theorem feat2_eq : Cert.KernelIdeal.Value.feat2 x1 x3 x4 x5 = val_main_v44 (F := Ideal) x1 x3 x4 x5 := by
  unfold Cert.KernelIdeal.Value.feat2
  rw [hid1_eq, nrm_eq, layer2_scaled, norm_again]

/-- Layer 2's product: aggregate the equal scaled arrays, then the same product with the second weights. -/
theorem prod2_eq : Cert.KernelIdeal.Value.prod2 x1 x3 x4 x5 x6 = val_main_v55 (F := Ideal) x1 x3 x4 x5 x6 := by
  unfold Cert.KernelIdeal.Value.prod2
  rw [agg2_eq x1 x3 x4 x5 _ (feat2_eq x1 x3 x4 x5), layer2_product]
  rfl

/-- Layer 2's output. -/
theorem hid2_eq : Cert.KernelIdeal.Value.hid2 x1 x3 x4 x5 x6 x7 = val_main_v61 (F := Ideal) x1 x3 x4 x5 x6 x7 := by
  unfold Cert.KernelIdeal.Value.hid2
  rw [prod2_eq, nrm_eq, bias128_row, layer2_out, norm_again]

/-- The last linear step sees its weights only through their entries: weight arrays of any two float
    formats with equal entries give the same result. -/
private theorem finalLinear_entries {R K C : ℕ} {φ ψ : FTy} (x : FVec Ideal ⟨2, ![R, K]⟩ .f32)
    (w : FVec Ideal ⟨2, ![K, C]⟩ φ) (w' : FVec Ideal ⟨2, ![K, C]⟩ ψ) (b : FVec Ideal ⟨2, ![1, C]⟩ .f32)
    (h : ∀ i, w i = w' i) : Spec.finalLinear x w b = Spec.finalLinear x w' b := by
  funext i
  unfold Spec.finalLinear Spec.finalLinearAt Spec.matmulAt
  simp only [h]

/-- The results agree: the last linear step sees the transposed weights only through their entries,
    and those are the reference's transposed weights' entries. -/
theorem out_eq : Cert.KernelIdeal.Value.out x1 x3 x4 x5 x6 x7 x8 x9 = val_main_v66 (F := Ideal) x1 x3 x4 x5 x6 x7 x8 x9 := by
  unfold Cert.KernelIdeal.Value.out
  rw [hid2_eq, bias16_row, final_out]
  exact finalLinear_entries _ _ _ _ (w3t_apply x8)

end Cert.Bridge

end
-- ==== Proof.lean ====
/-
  A two-layer graph convolution followed by a linear layer, computed by six row-block kernels with the edge
  aggregation on whole arrays between them, against the same network written with whole-array operations.

  Both programs compute, for the node features x, the edge list e and the weights and biases,

      n   = max (outdeg e, 1) ^ (-1/2)                       (one normaliser per node)
      h1  = max (A ((x ⊙ n) · w1) ⊙ n + b1, 0)
      h2  = max ((A (h1 ⊙ n)) · w2 ⊙ n + b2, 0)
      out = h2 · w3ᵀ + b3

  where A gathers rows at the edges' sources and adds them up at the edges' destinations.  The kernel program casts
  the weights and the matrix products' left operands to a narrower float format, which is the identity on the
  extended reals; it splits every row-wise step into fifty blocks of 2000 rows, which tile the arrays; and it
  computes the normaliser once where the reference computes it twice.  So on the extended reals the two results
  are one function of the arguments, with no condition on the inputs: only commutativity and associativity of the
  sums are used, never a law that fails at the infinities.

  The three frames are the generated ones (the reference's from its generated run); nothing was rewritten by the
  idealisation, so the preservation claim is trivial.  The value claim joins the kernel program's run read back through
  its segments (`KernelIdeal.Value.run`) to the reference's generated run by the bridge `Bridge.out_eq`.
-/
import proofs.«135295_j45483703664785_1_alg».proof.Defs
import proofs.«135295_j45483703664785_1_alg».proof.Proof.Gen.Kernel
import proofs.«135295_j45483703664785_1_alg».proof.Proof.Gen.Kernel.Frame
import proofs.«135295_j45483703664785_1_alg».proof.Proof.Gen.KernelIdeal
import proofs.«135295_j45483703664785_1_alg».proof.Proof.Gen.KernelIdeal.Frame
import proofs.«135295_j45483703664785_1_alg».proof.Proof.Gen.ReferenceIdeal
import proofs.«135295_j45483703664785_1_alg».proof.Proof.Gen.ReferenceIdeal.Run
import proofs.«135295_j45483703664785_1_alg».proof.Proof.Gen.ReferenceIdeal.Read
import proofs.«135295_j45483703664785_1_alg».proof.Proof.Gen.Pre_finite_inputs
import proofs.«135295_j45483703664785_1_alg».proof.Proof.KernelValue
import proofs.«135295_j45483703664785_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealisation rewrote nothing. -/
theorem preserves : Cert.preserves_Kernel_KernelIdeal := trivial

/-- Both programs end with their result at the one function `KernelIdeal.Value.out` of arguments that agree. -/
theorem algebraic : Cert.algebraic_KernelIdeal_ReferenceIdeal := by
  intro m ρ m' ρ' _ hagree
  refine ⟨fun c => Cert.KernelIdeal.Value.out
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    fun c => Cert.KernelIdeal.Value.out
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun _ h c => ⟨(h c).1, (h c).1, (h c).2⟩)
      (Cert.KernelIdeal.Value.run m ρ)
  · refine (θ_run Cert.ReferenceIdeal.defs _ _).mono (fun _ h c => ?_) (Cert.ReferenceIdeal.Value.run (F := Ideal) m' ρ')
    obtain ⟨a0, a1, a2, a3, a4, a5, a6, a7, a8, a9⟩ := hagree c
    have e := (Cert.ReferenceIdeal.Read.val_main_v66_eq (F := Ideal) m' c).trans
      (Cert.Bridge.out_eq _ _ _ _ _ _ _ _).symm
    rw [a1, a3, a4, a5, a6, a7, a8, a9] at e
    exact ⟨(h c).1.trans e, (h c).2.1.trans e, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
